-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S640000x2 : Shape := ⟨2, ![640000, 2]⟩
abbrev S_ : Shape := ⟨0, ![]⟩
abbrev S640000x1 : Shape := ⟨2, ![640000, 1]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000 : S_.BroadcastsInDim S640000 (![] : Fin 0 → Fin S640000.rank)
  reducesTo_S640000_S_d0 : S640000.ReducesTo [0] S_
  slices_S640000x2_S640000x1_0_0 : S640000x2.Slices ![0, 0] S640000x1
  shapeCasts_S640000x1_S640000 : S640000x1.ShapeCasts S640000

variable [Facts]

def fn_part1 {F : FTy → Type} [FloatOps F] (main_v8 : IVec S_ 1) (main_v17 : IVec S640000 1) : IVec S_ 1 :=
  let main_c_4 : IVec S_ 1 := constantI S_ 1 1#1
  let main_v18 : IVec S_ 1 := (fun x v => Host.reduce IntOp.andi x v reducesTo_S640000_S_d0 h_S_) main_v17 main_c_4
  let main_v19 : IVec S_ 1 := andi main_v8 main_v18
  main_v19

def fn {F : FTy → Type} [FloatOps F] (main_arg0 : FVec F S10000x128 .f32) (main_arg1 : FVec F S640000 .f32) (main_arg2 : IVec S640000x2 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000 .f32 := Host.absf main_arg1
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : IVec S640000x1 32 := (extractStridedSlice S640000x1 ![0, 0] · slices_S640000x2_S640000x1_0_0) main_arg2
  let main_v10 : IVec S640000 32 := shapeCast S640000 main_v9 shapeCasts_S640000x1_S640000
  let main_c_2 : IVec S_ 32 := constantI S_ 32 0#32
  let main_v11 : IVec S640000 32 := broadcastInDim S640000 ![] bcast_S_S640000 main_c_2
  let main_v12 : IVec S640000 1 := cmpi .sge main_v10 main_v11
  let main_v13 : IVec S640000x1 32 := (extractStridedSlice S640000x1 ![0, 0] · slices_S640000x2_S640000x1_0_0) main_arg2
  let main_v14 : IVec S640000 32 := shapeCast S640000 main_v13 shapeCasts_S640000x1_S640000
  let main_c_3 : IVec S_ 32 := constantI S_ 32 10000#32
  let main_v15 : IVec S640000 32 := broadcastInDim S640000 ![] bcast_S_S640000 main_c_3
  let main_v16 : IVec S640000 1 := cmpi .slt main_v14 main_v15
  let main_v17 : IVec S640000 1 := andi main_v12 main_v16
  fn_part1 (F := F) main_v8 main_v17
-- ==== Kernel.lean ====
abbrev S10000x128 : Shape := ⟨2, ![10000, 128]⟩
abbrev S640000 : Shape := ⟨1, ![640000]⟩
abbrev S640000x2 : Shape := ⟨2, ![640000, 2]⟩
abbrev S640000x1 : Shape := ⟨2, ![640000, 1]⟩
abbrev S128 : Shape := ⟨1, ![128]⟩
abbrev S10000x1 : Shape := ⟨2, ![10000, 1]⟩
abbrev S128x10000 : Shape := ⟨2, ![128, 10000]⟩
abbrev S128x1 : Shape := ⟨2, ![128, 1]⟩
abbrev S128x128 : Shape := ⟨2, ![128, 128]⟩
abbrev S1x128 : Shape := ⟨2, ![1, 128]⟩
abbrev S10000 : Shape := ⟨1, ![10000]⟩

abbrev nBuf : Space → Nat
  | .hbm => 8
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S640000, .f32⟩
  | .hbm, ⟨2, _⟩ => ⟨S640000x2, .i32⟩
  | .hbm, ⟨3, _⟩ => ⟨S640000x1, .i32⟩
  | .hbm, ⟨4, _⟩ => ⟨S640000, .i32⟩
  | .hbm, ⟨5, _⟩ => ⟨S640000x1, .i32⟩
  | .hbm, ⟨6, _⟩ => ⟨S640000, .i32⟩
  | .hbm, ⟨7, _⟩ => ⟨S10000x128, .f32⟩
  | .local _ .vmem, ⟨0, _⟩ => ⟨S128, .i32⟩
  | .local _ .vmem, ⟨1, _⟩ => ⟨S128, .i32⟩
  | .local _ .vmem, ⟨2, _⟩ => ⟨S128, .i32⟩
  | .local _ .vmem, ⟨3, _⟩ => ⟨S128, .i32⟩
  | .local _ .vmem, ⟨4, _⟩ => ⟨S128, .f32⟩
  | .local _ .vmem, ⟨5, _⟩ => ⟨S128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![5000], ![false]⟩

def k0_cond2 (i : grid0.Coords) : BitVec 1 :=
  let arg0 : BitVec 32 := BitVec.ofNat 32 (i 0).val
  let c4999_i32 : BitVec 32 := 4999#32
  let v43 : BitVec 1 := Scalar.cmpi .eq arg0 c4999_i32
  let v44 : BitVec 32 := Scalar.extui v43
  let c0_i32_15 : BitVec 32 := 0#32
  let v45 : BitVec 1 := Scalar.cmpi .ne v44 c0_i32_15
  v45

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10000x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  slices_S640000x2_S640000x1_0_0 : S640000x2.Slices ![0, 0] S640000x1
  shapeCasts_S640000x1_S640000 : S640000x1.ShapeCasts S640000
  slices_S640000x2_S640000x1_0_1 : S640000x2.Slices ![0, 1] S640000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S128_S128_0 : ∀ a, (![0] : Fin 1 → Nat) a + S128.size a ≤ S128.size a
  h_S128 : 0 < S128.numel
  shapeCasts_S128_S128 : S128.ShapeCasts S128
  iota_S128x10000_d1_w32 : S128x10000.Iotas .tc 32 [1]
  shapeCasts_S128_S128x1 : S128.ShapeCasts S128x1
  broadcasts_S128x1_S128x10000 : S128x1.Broadcasts S128x10000
  natLt_1_32 : 1 < 32
  broadcasts_S128x1_S128x128 : S128x1.Broadcasts S128x128
  bitsLt_bf16_f32 : FTy.bits .bf16 < FTy.bits .f32
  iota_S10000x128_d0_w32 : S10000x128.Iotas .tc 32 [0]
  shapeCasts_S128_S1x128 : S128.ShapeCasts S1x128
  broadcasts_S1x128_S10000x128 : S1x128.Broadcasts S10000x128
  reduces_S10000x128_S10000 : S10000x128.Reduces [1] S10000
  shapeCasts_S10000_S10000x1 : S10000.ShapeCasts S10000x1
  broadcasts_S10000x1_S10000x128 : S10000x1.Broadcasts S10000x128
  dot_S128x10000_S10000x128_S128x128_1_0_0_1_n_n_wf : DotDims.WF S128x10000 S10000x128 S128x128 [1] [0] [0] [1] [] []
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128.size a ≤ S640000.size a
  hwx0_0 : ∀ i : grid0.Coords, EltTy.bits .i32 = 32 ∨ (Rect.block (s := S640000) S128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S640000.size a
  hwx0_1 : ∀ i : grid0.Coords, EltTy.bits .i32 = 32 ∨ (Rect.block (s := S640000) S128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S640000.size a
  hwx0_2 : ∀ i : grid0.Coords, EltTy.bits .f32 = 32 ∨ (Rect.block (s := S640000) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S10000x128.size a
  hwx0_3 : ∀ i : grid0.Coords, EltTy.bits .f32 = 32 ∨ (Rect.block (s := S10000x128) S10000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S10000x128.size a
  hwx0_4 : ∀ i : grid0.Coords, EltTy.bits .f32 = 32 ∨ (Rect.block (s := S10000x128) S10000x128.size (cc0_transform_4 i) (hinb0_4 i)).WholeWords (EltTy.packing .f32)

variable [Facts₀]

def dot_S128x10000_S10000x128_S128x128_1_0_0_1_n_n : DotDims S128x10000 S10000x128 S128x128 where
  lhsContracting := [1]
  rhsContracting := [0]
  lhsNonContracting := [0]
  rhsNonContracting := [1]
  lhsBatch := []
  rhsBatch := []
  wf := dot_S128x10000_S10000x128_S128x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v1) S128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S10000x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S10000x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S10000x128 : Shape := ⟨2, ![10000, 128]⟩
abbrev S640000 : Shape := ⟨1, ![640000]⟩
abbrev S640000x2 : Shape := ⟨2, ![640000, 2]⟩
abbrev S640000x1 : Shape := ⟨2, ![640000, 1]⟩
abbrev S_ : Shape := ⟨0, ![]⟩
abbrev S640000x128 : Shape := ⟨2, ![640000, 128]⟩
abbrev S10000 : Shape := ⟨1, ![10000]⟩
abbrev S10000x1 : Shape := ⟨2, ![10000, 1]⟩

abbrev nBuf : Space → Nat
  | .hbm => 52
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .f32⟩
  | .hbm, ⟨2, _⟩ => ⟨S640000x2, .i32⟩
  | .hbm, ⟨3, _⟩ => ⟨S640000x1, .i32⟩
  | .hbm, ⟨4, _⟩ => ⟨S640000, .i32⟩
  | .hbm, ⟨5, _⟩ => ⟨S640000x1, .i32⟩
  | .hbm, ⟨6, _⟩ => ⟨S640000, .i32⟩
  | .hbm, ⟨7, _⟩ => ⟨S_, .i32⟩
  | .hbm, ⟨8, _⟩ => ⟨S640000, .i32⟩
  | .hbm, ⟨9, _⟩ => ⟨S640000, .i1⟩
  | .hbm, ⟨10, _⟩ => ⟨S_, .i32⟩
  | .hbm, ⟨11, _⟩ => ⟨S640000, .i32⟩
  | .hbm, ⟨12, _⟩ => ⟨S640000, .i32⟩
  | .hbm, ⟨13, _⟩ => ⟨S640000, .i32⟩
  | .hbm, ⟨14, _⟩ => ⟨S640000x1, .i32⟩
  | .hbm, ⟨15, _⟩ => ⟨S640000x128, .f32⟩
  | .hbm, ⟨16, _⟩ => ⟨S640000x1, .f32⟩
  | .hbm, ⟨17, _⟩ => ⟨S640000x128, .f32⟩
  | .hbm, ⟨18, _⟩ => ⟨S640000x128, .f32⟩
  | .hbm, ⟨19, _⟩ => ⟨S_, .f32⟩
  | .hbm, ⟨20, _⟩ => ⟨S10000x128, .f32⟩
  | .hbm, ⟨21, _⟩ => ⟨S640000x1, .i32⟩
  | .hbm, ⟨22, _⟩ => ⟨S10000x128, .f32⟩
  | .hbm, ⟨23, _⟩ => ⟨S_, .f32⟩
  | .hbm, ⟨24, _⟩ => ⟨S10000, .f32⟩
  | .hbm, ⟨25, _⟩ => ⟨S640000x1, .i32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S10000x1, .f32⟩
  | .hbm, ⟨31, _⟩ => ⟨S10000x128, .f32⟩
  | .hbm, ⟨32, _⟩ => ⟨S10000x128, .f32⟩
  | .hbm, ⟨33, _⟩ => ⟨S_, .f32⟩
  | .hbm, ⟨34, _⟩ => ⟨S10000, .f32⟩
  | .hbm, ⟨35, _⟩ => ⟨S10000, .i1⟩
  | .hbm, ⟨36, _⟩ => ⟨S10000, .f32⟩
  | .hbm, ⟨37, _⟩ => ⟨S10000x1, .f32⟩
  | .hbm, ⟨38, _⟩ => ⟨S_, .f32⟩
  | .hbm, ⟨39, _⟩ => ⟨S10000x1, .f32⟩
  | .hbm, ⟨40, _⟩ => ⟨S10000x1, .f32⟩
  | .hbm, ⟨41, _⟩ => ⟨S_, .f32⟩
  | .hbm, ⟨42, _⟩ => ⟨S10000x1, .f32⟩
  | .hbm, ⟨43, _⟩ => ⟨S10000x1, .f32⟩
  | .hbm, ⟨44, _⟩ => ⟨S10000x128, .f32⟩
  | .hbm, ⟨45, _⟩ => ⟨S10000x128, .f32⟩
  | .hbm, ⟨46, _⟩ => ⟨S_, .f32⟩
  | .hbm, ⟨47, _⟩ => ⟨S10000x1, .f32⟩
  | .hbm, ⟨48, _⟩ => ⟨S10000x1, .f32⟩
  | .hbm, ⟨49, _⟩ => ⟨S10000x128, .f32⟩
  | .hbm, ⟨50, _⟩ => ⟨S10000x128, .f32⟩
  | .hbm, ⟨51, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]

class Facts₀ : Prop where
  slices_S640000x2_S640000x1_0_0 : S640000x2.Slices ![0, 0] S640000x1
  shapeCasts_S640000x1_S640000 : S640000x1.ShapeCasts S640000
  slices_S640000x2_S640000x1_0_1 : S640000x2.Slices ![0, 1] S640000x1
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S_S10000x1 : S_.BroadcastsInDim S10000x1 (![] : Fin 0 → Fin S10000x1.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf

class Facts : Prop extends Facts₀ where

variable [Facts]
-- ==== Proof.PreRange.lean ====
import proofs.«427598_j71588514890457_2_alg».proof.Proof.Gen.Pre_finite_inputs
import Idealize.ShloMosaic.Lib.ReduceAll
import Idealize.ShloMosaic.Lib.StableHlo.Predicate
import Idealize.ShloMosaic.Lib.Pipeline.Value
import Idealize.ShloMosaic.Lib.ValueIdx

/-!
# The precondition, decoded: every source word is a node number

The printed precondition is a conjunction of three scalar bits. The third is the `and`-reduction, over all
640000 edges, of the bit  `0 ≤ edges[e, 0]  ∧  edges[e, 0] < 10000`  (both comparisons signed), where column 0 of
the edge table is taken as a slice [640000 × 1] and reshaped to a vector. The precondition being 1 therefore gives,
at every edge `e`, that the signed value of the source word lies in [0, 10000).
-/

namespace Cert.PreRange
open Idealize.ShloMosaic Idealize.ShloMosaic.ValueIdx

/-- The scalar shape has exactly one index (a function out of the empty set of axes). -/
instance : Subsingleton Cert.Pre_finite_inputs.S_.Idx := ⟨fun _ _ => funext fun d => d.elim0⟩

/-- Column 0 of the edge table, sliced to [640000 × 1] and reshaped to [640000], read at `e` is the word at
    row `e`, column 0: the slice has offset (0, 0), and row-major position `e · 1 + 0` of the column is
    position `e` of the vector. -/
theorem col0_apply (x2 : IVec Cert.Pre_finite_inputs.S640000x2 32)
    (hs : Cert.Pre_finite_inputs.S640000x2.Slices ![0, 0] Cert.Pre_finite_inputs.S640000x1)
    (hc : Cert.Pre_finite_inputs.S640000x1.ShapeCasts Cert.Pre_finite_inputs.S640000) (e : Fin 640000) :
    shapeCast Cert.Pre_finite_inputs.S640000
        (extractStridedSlice Cert.Pre_finite_inputs.S640000x1 ![0, 0] x2 hs) hc (ix1 e)
      = x2 (ix2 e 0) := by
  refine (shapeCast_apply _ hc (ix1 e) (ix2 e (0 : Fin 1)) ?_).trans ?_
  · rw [Shape.rowMajor_val_two, Shape.rowMajor_val_one]
    show e.val * 1 + 0 = e.val
    omega
  · refine extractStridedSlice_apply ![0, 0] x2 hs (ix2 e (0 : Fin 1)) (ix2 e (0 : Fin 2)) fun a => ?_
    match a with
    | ⟨0, _⟩ => show e.val = 0 + e.val; omega
    | ⟨1, _⟩ => show (0 : Nat) = 0 + 0; rfl

theorem src_range (x0 : FVec Ideal Cert.Pre_finite_inputs.S10000x128 .f32) (x1 : FVec Ideal Cert.Pre_finite_inputs.S640000 .f32) (x2 : IVec Cert.Pre_finite_inputs.S640000x2 32)
    (h : Cert.Pre_finite_inputs.fn (F := Ideal) x0 x1 x2 = fun _ => 1#1) (e : Fin 640000) :
    0 ≤ (x2 (ix2 e 0)).toInt ∧ (x2 (ix2 e 0)).toInt < 10000 := by
  -- the precondition's one bit, with the printed chain of operations in place of its name
  have h0 := congrFun h ix0
  dsimp only [Cert.Pre_finite_inputs.fn, Cert.Pre_finite_inputs.fn_part1] at h0
  -- of the three conjuncts keep the last: the conjunction over all edges of the range test
  have h1 := (IntOp.andi_eq_one.1 h0).2
  -- a conjunction over all edges that holds, holds at edge e
  have h2 := Host.reduce_andi_all _ _ _ _ _ h1 (ix1 e)
  -- the range test at e is two signed comparisons
  obtain ⟨hge, hlt⟩ := IntOp.andi_eq_one.1 h2
  have hge' := IntOp.cmpi_sge.1 hge
  have hlt' := IntOp.cmpi_slt.1 hlt
  -- the compared word is the source word of edge e; the bounds are the broadcast constants 0 and 10000
  rw [col0_apply] at hge' hlt'
  have z : (0#32 : BitVec 32).toInt = 0 := by decide
  have t : (10000#32 : BitVec 32).toInt = 10000 := by decide
  exact ⟨z ▸ hge', t ▸ hlt'⟩

end Cert.PreRange
-- ==== Proof.Spec.lean ====
/-
  The mathematics both programs compute: one round of weighted neighbour aggregation on a graph with 10000 nodes,
  128 features per node and 640000 directed edges.

  Edge `e` carries a source word, a target word and a weight `w e`. Its message is the feature row of its source
  scaled by its weight. Node `r` receives the sum `enh r` of the messages of the edges whose target word, read as a
  signed integer, is `r`, and the sum `cnt r` of their weights. The result blends the node's own features with the
  received average `enh r / max (cnt r) eps`: the share `agg` goes to the average where the node received more than
  `eps` of weight, and nothing changes elsewhere.
-/
import Idealize.ShloMosaic.PureOps.Ideal
import Idealize.ShloMosaic.Lib.ValueIdx
import Mathlib.Algebra.BigOperators.Fin

open scoped BigOperators

noncomputable section

namespace Cert.Agg

open Idealize.ShloMosaic Idealize.ShloMosaic.ValueIdx

/-- The node features, `[10000, 128]`. -/
abbrev SF : Shape := ⟨2, ![10000, 128]⟩
/-- The edge weights, `[640000]`. -/
abbrev SW : Shape := ⟨1, ![640000]⟩
/-- The edges, `[640000, 2]`: column 0 the source, column 1 the target. -/
abbrev SE : Shape := ⟨2, ![640000, 2]⟩

/-- The three constants, as the extended reals their binary32 words denote (both programs carry the same words, so
    they are never evaluated). -/
def eps : EReal := Ideal.ofBits .f32 0x322BCC77#32
def agg : EReal := Ideal.ofBits .f32 0x3E99999A#32
def one : EReal := Ideal.ofBits .f32 0x3F800000#32

section
variable (feat : SF.Idx → EReal) (w : SW.Idx → EReal) (edges : IVec SE 32)

/-- The feature row edge `e` reads: its source word read signed, kept inside the table. -/
def srcRow (e : Fin 640000) : Fin 10000 := ⟨min (edges (ix2 e 0)).toInt.toNat 9999, by omega⟩

/-- The message of edge `e` in feature column `d`. -/
def msg (e : Fin 640000) (d : Fin 128) : EReal := feat (ix2 (srcRow edges e) d) * w (ix1 e)

/-- The edges that point at node `r`. -/
def into (r : Fin 10000) : Finset (Fin 640000) :=
  Finset.univ.filter fun e => (edges (ix2 e 1)).toInt = (r.val : Int)

/-- What node `r` receives in column `d`. -/
def enh (r : Fin 10000) (d : Fin 128) : EReal := ∑ e ∈ into edges r, msg feat w edges e d

/-- The weight node `r` receives. -/
def cnt (r : Fin 10000) : EReal := ∑ e ∈ into edges r, w (ix1 e)
end

/-- Whether a node received more than `eps` of weight, as the number 1 or 0. -/
def gate (c : EReal) : EReal := if eps < c then 1 else 0

/-- The blend of a node's own entry `x` with the received sum `s` over the received weight `c`. -/
def blend (x s c : EReal) : EReal := x * (one - agg * gate c) + Ideal.div s (max c eps) * (agg * gate c)

/-- The result at node `r`, column `d`. -/
def Gat (feat : SF.Idx → EReal) (w : SW.Idx → EReal) (edges : IVec SE 32) (r : Fin 10000) (d : Fin 128) : EReal :=
  blend (feat (ix2 r d)) (enh feat w edges r d) (cnt w edges r)

/-- The result, as one array. -/
def G (feat : SF.Idx → EReal) (w : SW.Idx → EReal) (edges : IVec SE 32) : SF.Idx → EReal :=
  fun i => Gat feat w edges ⟨(i 0).val, idx2_lt0 i⟩ ⟨(i 1).val, idx2_lt1 i⟩

theorem G_ix2 (feat : SF.Idx → EReal) (w : SW.Idx → EReal) (edges : IVec SE 32) (r : Fin 10000) (d : Fin 128) :
    G feat w edges (ix2 r d) = Gat feat w edges r d := rfl

/-- An array `[10000, 128]` that reads `Gat` at every pair of coordinates is `G`. -/
theorem eq_G (feat : SF.Idx → EReal) (w : SW.Idx → EReal) (edges : IVec SE 32) (f : SF.Idx → EReal)
    (h : ∀ (r : Fin 10000) (d : Fin 128), f (ix2 r d) = Gat feat w edges r d) : f = G feat w edges := by
  funext i
  obtain ⟨r, d, rfl⟩ : ∃ (r : Fin 10000) (d : Fin 128), i = ix2 r d := ⟨i 0, i 1, eq_ix2 i⟩
  rw [h, G_ix2]

/-- The ordered comparison `x > y` of two extended reals as a one-bit word. -/
theorem cmp_ogt_pos {x y : EReal} (h : y < x) : Ideal.cmp .ogt x y = 1#1 := by
  unfold Ideal.cmp
  simp only [decide_eq_true h]
  rfl

theorem cmp_ogt_neg {x y : EReal} (h : ¬ y < x) : Ideal.cmp .ogt x y = 0#1 := by
  unfold Ideal.cmp
  simp only [decide_eq_false h]
  rfl

/-- The comparison "more than `eps`", widened to a 32-bit word and converted as a signed integer, is the gate. -/
theorem gate_signed (c : EReal) :
    FloatOps.sitofp (F := Ideal) .f32 ((FloatOps.cmpf (F := Ideal) (φ := .f32) .ogt c eps).setWidth 32) = gate c := by
  show (((((Ideal.cmp .ogt c eps).setWidth 32).toInt : ℝ)) : EReal) = gate c
  unfold gate
  by_cases h : eps < c
  · rw [if_pos h, cmp_ogt_pos h, show ((1#1 : BitVec 1).setWidth 32).toInt = 1 from by decide]
    norm_num
  · rw [if_neg h, cmp_ogt_neg h, show ((0#1 : BitVec 1).setWidth 32).toInt = 0 from by decide]
    norm_num

/-- Taking the larger of the received weight and `eps` first does not change whether it exceeds `eps`; the
    comparison converted as an unsigned integer is the same gate. -/
theorem gate_unsigned_max (c : EReal) :
    FloatOps.uitofp (F := Ideal) .f32 (FloatOps.cmpf (F := Ideal) (φ := .f32) .ogt (max c eps) eps) = gate c := by
  show ((((Ideal.cmp .ogt (max c eps) eps).toNat : ℝ)) : EReal) = gate c
  unfold gate
  have hiff : eps < max c eps ↔ eps < c := by
    constructor
    · intro h
      rcases lt_max_iff.mp h with h | h
      · exact h
      · exact absurd h (lt_irrefl _)
    · intro h
      exact lt_max_of_lt_left h
  by_cases h : eps < c
  · rw [if_pos h, cmp_ogt_pos (hiff.mpr h), show (1#1 : BitVec 1).toNat = 1 from by decide]
    norm_num
  · rw [if_neg h, cmp_ogt_neg (fun hh => h (hiff.mp hh)), show (0#1 : BitVec 1).toNat = 0 from by decide]
    norm_num

end Cert.Agg

end
-- ==== Proof.LibRowGather.lean ====
/-
  A row gather read at an element. jnp's `table[idx]` over a rank-2 table `[N, M]` with a vector of `n` row numbers
  lowers to a `stablehlo.gather` whose start indices are the `[n, 1]` column of row numbers, whose operand axis 0 is
  collapsed and start-indexed, whose operand axis 1 is kept whole as the result's offset axis 1, and whose index vector
  sits on axis 1 of the start indices. Result element `(p, q)` is the table at row "start index of `p`, read signed and
  clamped into `[0, N - 1]`" and column `q`.
-/
import Idealize.ShloMosaic.Lib.StableHlo.Predicate

namespace Cert.LibRowGather

open Idealize.ShloMosaic Idealize.ShloMosaic.StableHlo.Predicate

/-- The one entry of a list known to be a singleton. -/
theorem getElem_of_eq_singleton {α : Type} {L : List α} {x : α} (h : L = [x]) (k : Nat) (hk : k < L.length) : L[k] = x := by
  subst h
  have hk0 : k = 0 := by simpa using hk
  subst hk0
  rfl

section
variable {α : Type} {N M n w : Nat} (d : GatherDims ⟨2, ![N, M]⟩ ⟨2, ![n, 1]⟩ ⟨2, ![n, M]⟩)
  (hoff : d.offsetDims = [1]) (hcoll : d.collapsedSliceDims = [0]) (hob : d.operandBatchingDims = [])
  (hsim : d.startIndexMap = [0]) (hivd : d.indexVectorDim = 1)
include hoff hcoll hob hsim hivd

/-- The start-indices entry that result row `p` reads its row number from is entry `(p, 0)`. -/
theorem siIdx_row (p : Fin n) (q : Fin M) (c : Fin d.startIndexMap.length) : d.siIdx (ij p q) c = ixP p := by
  have hc : c.val = 0 := by
    have hlen : d.startIndexMap.length = 1 := by rw [hsim]; rfl
    have := c.isLt
    omega
  funext b
  match b with
  | ⟨0, _⟩ =>
    unfold GatherDims.siIdx
    rw [dif_neg (by rw [hivd]; simp)]
    unfold GatherDims.siCoord
    apply Fin.ext
    simp only [Fin.val_cast]
    have hbd : d.batchDims = [0] := by
      show (⟨2, ![n, M]⟩ : Shape).kept d.offsetDims = [0]
      rw [hoff]; rfl
    rw [getElem_of_eq_singleton hbd]
    rfl
  | ⟨1, _⟩ =>
    unfold GatherDims.siIdx
    rw [dif_pos (by rw [hivd])]
    apply Fin.ext
    exact hc

/-- On the table's row axis the operand index is the clamped start index. -/
theorem operandIdx_row (idx : IVec ⟨2, ![n, 1]⟩ w) (p : Fin n) (q : Fin M) :
    (d.operandIdx (ij p q) idx 0).val = min (idx (ixP p)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  rw [siIdx_row d hoff hcoll hob hsim hivd p q, hsl]
  rfl

/-- On the table's column axis the operand index is the result's column. -/
theorem operandIdx_col (idx : IVec ⟨2, ![n, 1]⟩ w) (p : Fin n) (q : Fin M) :
    (d.operandIdx (ij p q) idx 1).val = q.val := by
  have hb : (1 : Fin 2) ∉ d.operandBatchingDims := by rw [hob]; exact List.not_mem_nil
  have hm : (1 : Fin 2) ∉ d.startIndexMap := by rw [hsim]; simp
  have hk : (1 : Fin 2) ∈ d.sKept := by rw [GatherDims.mem_sKept, hcoll, hob]; simp
  simp only [GatherDims.operandIdx, GatherDims.batchCoord_eq_zero _ _ _ hb, Nat.add_zero, GatherDims.start, dif_neg hm,
    Nat.zero_add, GatherDims.offCoord, dif_pos hk]
  rw [getElem_of_eq_singleton hoff]
  rfl

/-- THE ROW GATHER at `(p, q)`: the table at the clamped row number of `p` and at column `q`. -/
theorem gather_rows (x : (⟨2, ![N, M]⟩ : Shape).Idx → α) (idx : IVec ⟨2, ![n, 1]⟩ w) (p : Fin n) (q : Fin M) (hN : 0 < N) :
    Host.gather d x idx (ij p q) = x (ij ⟨min (idx (ixP p)).toInt.toNat (N - 1), by omega⟩ q) := by
  unfold Host.gather
  congr 1
  funext a
  match a with
  | ⟨0, _⟩ => exact Fin.ext (operandIdx_row d hoff hcoll hob hsim hivd idx p q)
  | ⟨1, _⟩ => exact Fin.ext (operandIdx_col d hoff hcoll hob hsim hivd idx p q)

end

end Cert.LibRowGather
-- ==== Proof.LibScatterRows.lean ====
/-
  The host's accumulating float scatter, read row-wise, on the extended reals.

  The accumulating scatter adds, to every operand element, the exact sum of the update elements whose result index
  is that element. For the row pattern — operand `[N, C]` (or `[N, A, B]`), one signed scatter index per update row
  held in a column `[M, 1]`, updates `[M, C]` (or `[M, A, B]`), the updates' trailing axes the window, the operand's
  leading axis inserted and the one scattered to — update element `(m, c)` lands on operand element `(n, c)` exactly
  when the index word of row `m`, read signed, is `n`; an index outside `[0, N)` lands nowhere. So the scatter at
  `(n, c)` is the operand there plus the sum of `upd (m, c)` over the rows `m` whose index is `n`.

  Addition on the extended reals is commutative and associative with no finiteness condition, and a sum over
  `M₁ + M₂` rows filtered by a predicate splits over the first `M₁` and the last `M₂` rows; hence scattering two
  stacked blocks of updates at two stacked index columns is scattering the first block and then the second.
-/
import Idealize.ShloMosaic.PureOps.Ideal
import Idealize.ShloMosaic.Lib.ValueIdx
import Idealize.ShloMosaic.Lib.Pipeline.Value
import Mathlib.Algebra.BigOperators.Fin

noncomputable section

open scoped BigOperators

namespace Cert.Lib

open Idealize.ShloMosaic Idealize.ShloMosaic.ValueIdx

/-- An element of a one-element list, whatever the position's proof: the element. -/
theorem getElem_singleton_any {α : Type} (a : α) (k : Nat) (h : k < [a].length) : [a][k] = a := by
  have : k = 0 := by simpa using h
  subst this; rfl

/-! ## Rank 2: operand `[N, C]`, indices `[M, 1]`, updates `[M, C]` -/

/-- The row pattern's dimension numbers at rank 2: `update_window_dims = [1]`, `inserted_window_dims = [0]`,
    `scatter_dims_to_operand_dims = [0]`, `index_vector_dim = 1`. At a printed record every field is `rfl`:
    `⟨rfl, rfl, rfl, rfl⟩`. -/
structure RowScatter2 {N M C : Nat} (d : ScatterDims ⟨2, ![N, C]⟩ ⟨2, ![M, 1]⟩ ⟨2, ![M, C]⟩) : Prop where
  uw : d.updateWindowDims = [1]
  iw : d.insertedWindowDims = [0]
  sd : d.scatterDimsToOperandDims = [0]
  iv : d.indexVectorDim = 1

/-- Where an update element lands, in the row pattern at rank 2: update `(m, c)` lands on operand `(n, c')` exactly when
    row `m`'s index word, read signed, is `n`, and `c = c'`. An index word that is negative or at least `N` equals no
    `n : Fin N`: that update is dropped. -/
theorem resultIdx?_rows2 {N M C w : Nat} (d : ScatterDims ⟨2, ![N, C]⟩ ⟨2, ![M, 1]⟩ ⟨2, ![M, C]⟩)
    (hd : RowScatter2 d) (m : Fin M) (c : Fin C) (idx : IVec ⟨2, ![M, 1]⟩ w) (n : Fin N) (c' : Fin C) :
    d.resultIdx? (ix2 m c) idx = some (ix2 n c') ↔ (idx (ix2 m 0)).toInt = (n.val : Int) ∧ c = c' := by
  obtain ⟨hu, hi, hs, hv⟩ := hd
  obtain ⟨uw, iw, sd, iv, wf⟩ := d
  simp only at hu hi hs hv
  subst hu hi hs hv
  have hsi : ∀ (j : (⟨2, ![M, C]⟩ : Shape).Idx) (k : Fin 1), ScatterDims.siIdx (s := ⟨2, ![N, C]⟩) ⟨[1], [0], [0], 1, wf⟩ j k = ix2 (j 0) 0 := by
    intro j k
    funext b
    match b with
    | ⟨0, _⟩ =>
      unfold ScatterDims.siIdx ScatterDims.siCoord
      rw [dif_neg (by simp)]
      apply Fin.ext
      show (j (([0] : List (Fin 2))[_]'_)).val = (j 0).val
      exact congrArg (fun a => (j a).val) (getElem_singleton_any _ _ _)
    | ⟨1, _⟩ => exact Subsingleton.elim (α := Fin 1) _ _
  have hst0 : ∀ j : (⟨2, ![M, C]⟩ : Shape).Idx, ScatterDims.start (s := ⟨2, ![N, C]⟩) ⟨[1], [0], [0], 1, wf⟩ j idx 0 = (idx (ix2 (j 0) 0)).toInt := by
    intro j
    unfold ScatterDims.start
    rw [dif_pos (List.mem_singleton.2 rfl)]
    exact congrArg (fun t => (idx t).toInt) (hsi j _)
  have hst1 : ∀ j : (⟨2, ![M, C]⟩ : Shape).Idx, ScatterDims.start (s := ⟨2, ![N, C]⟩) ⟨[1], [0], [0], 1, wf⟩ j idx 1 = 0 := by
    intro j
    unfold ScatterDims.start
    rw [dif_neg (by simp)]
  have hw0 : ∀ j : (⟨2, ![M, C]⟩ : Shape).Idx, ScatterDims.window (s := ⟨2, ![N, C]⟩) (si := ⟨2, ![M, 1]⟩) ⟨[1], [0], [0], 1, wf⟩ j 0 = 0 := by
    intro j
    have h0 : (0 : Fin 2) ∉ ScatterDims.sKept (s := ⟨2, ![N, C]⟩) (si := ⟨2, ![M, 1]⟩) (u := ⟨2, ![M, C]⟩) ⟨[1], [0], [0], 1, wf⟩ := by
      show (0 : Fin 2) ∉ ([1] : List (Fin 2)); simp
    unfold ScatterDims.window
    rw [dif_neg h0]
  have hw1 : ∀ j : (⟨2, ![M, C]⟩ : Shape).Idx, ScatterDims.window (s := ⟨2, ![N, C]⟩) (si := ⟨2, ![M, 1]⟩) ⟨[1], [0], [0], 1, wf⟩ j 1 = (j 1).val := by
    intro j
    have h1 : (1 : Fin 2) ∈ ScatterDims.sKept (s := ⟨2, ![N, C]⟩) (si := ⟨2, ![M, 1]⟩) (u := ⟨2, ![M, C]⟩) ⟨[1], [0], [0], 1, wf⟩ := by
      show (1 : Fin 2) ∈ ([1] : List (Fin 2)); simp
    unfold ScatterDims.window
    rw [dif_pos h1]
    exact congrArg (fun a => (j a).val) (getElem_singleton_any _ _ _)
  constructor
  · intro h
    unfold ScatterDims.resultIdx? at h
    split at h
    · next hc =>
      have hf := Option.some.inj h
      have e0 := congrArg Fin.val (congrFun hf 0)
      have e1 := congrArg Fin.val (congrFun hf 1)
      have c0 := hc 0
      simp only [hst0, hw0] at e0 c0
      simp only [hst1, hw1] at e1
      change ((idx (ix2 m 0)).toInt + ((0 : Nat) : Int)).toNat = n.val at e0
      change 0 ≤ (idx (ix2 m 0)).toInt + ((0 : Nat) : Int) ∧ _ at c0
      change (0 + ((c.val : Nat) : Int)).toNat = c'.val at e1
      refine ⟨by omega, Fin.ext (by omega)⟩
    · exact absurd h (by simp)
  · rintro ⟨hT, rfl⟩
    have hcond : ∀ a : Fin 2, 0 ≤ ScatterDims.start (s := ⟨2, ![N, C]⟩) ⟨[1], [0], [0], 1, wf⟩ (ix2 m c) idx a
          + (ScatterDims.window (s := ⟨2, ![N, C]⟩) (si := ⟨2, ![M, 1]⟩) ⟨[1], [0], [0], 1, wf⟩ (ix2 m c) a : Int) ∧
        ScatterDims.start (s := ⟨2, ![N, C]⟩) ⟨[1], [0], [0], 1, wf⟩ (ix2 m c) idx a
          + (ScatterDims.window (s := ⟨2, ![N, C]⟩) (si := ⟨2, ![M, 1]⟩) ⟨[1], [0], [0], 1, wf⟩ (ix2 m c) a : Int)
          < ((⟨2, ![N, C]⟩ : Shape).size a : Int) := by
      intro a
      match a with
      | ⟨0, _⟩ =>
        rw [show (⟨0, by omega⟩ : Fin 2) = 0 from rfl, hst0, hw0]
        change 0 ≤ (idx (ix2 m 0)).toInt + ((0 : Nat) : Int) ∧ (idx (ix2 m 0)).toInt + ((0 : Nat) : Int) < (N : Int)
        have := n.isLt
        omega
      | ⟨1, _⟩ =>
        rw [show (⟨1, by omega⟩ : Fin 2) = 1 from rfl, hst1, hw1]
        change 0 ≤ 0 + ((c.val : Nat) : Int) ∧ 0 + ((c.val : Nat) : Int) < (C : Int)
        have := c.isLt
        omega
    unfold ScatterDims.resultIdx?
    rw [dif_pos hcond]
    congr 1
    funext a
    apply Fin.ext
    match a with
    | ⟨0, _⟩ =>
      show (ScatterDims.start (s := ⟨2, ![N, C]⟩) ⟨[1], [0], [0], 1, wf⟩ (ix2 m c) idx 0
          + (ScatterDims.window (s := ⟨2, ![N, C]⟩) (si := ⟨2, ![M, 1]⟩) ⟨[1], [0], [0], 1, wf⟩ (ix2 m c) 0 : Int)).toNat = n.val
      rw [hst0, hw0]
      change ((idx (ix2 m 0)).toInt + ((0 : Nat) : Int)).toNat = n.val
      omega
    | ⟨1, _⟩ =>
      show (ScatterDims.start (s := ⟨2, ![N, C]⟩) ⟨[1], [0], [0], 1, wf⟩ (ix2 m c) idx 1
          + (ScatterDims.window (s := ⟨2, ![N, C]⟩) (si := ⟨2, ![M, 1]⟩) ⟨[1], [0], [0], 1, wf⟩ (ix2 m c) 1 : Int)).toNat = c.val
      rw [hst1, hw1]
      change (0 + ((c.val : Nat) : Int)).toNat = c.val
      omega

/-- THE ROW FORM at rank 2: the accumulating scatter at operand element `(n, c)` is the operand there plus the sum of
    `upd (m, c)` over the update rows `m` whose index word `idx (m, 0)`, read signed, is `n`. -/
theorem hostScatterAdd_rows2 {N M C w : Nat} (d : ScatterDims ⟨2, ![N, C]⟩ ⟨2, ![M, 1]⟩ ⟨2, ![M, C]⟩)
    (hd : RowScatter2 d) (x : (⟨2, ![N, C]⟩ : Shape).Idx → EReal) (idx : IVec ⟨2, ![M, 1]⟩ w)
    (upd : (⟨2, ![M, C]⟩ : Shape).Idx → EReal) (n : Fin N) (c : Fin C) :
    Ideal.hostScatterAdd d x idx upd (ix2 n c)
      = x (ix2 n c) + ∑ m ∈ Finset.univ.filter (fun m : Fin M => (idx (ix2 m 0)).toInt = (n.val : Int)), upd (ix2 m c) := by
  unfold Ideal.hostScatterAdd
  congr 1
  symm
  refine Finset.sum_bij (fun m _ => ix2 m c) ?_ ?_ ?_ ?_
  · intro m hm
    simp only [Finset.mem_filter, Finset.mem_univ, true_and] at hm ⊢
    exact (resultIdx?_rows2 d hd m c idx n c).2 ⟨hm, rfl⟩
  · intro m₁ _ m₂ _ h
    exact congrFun h 0
  · intro j hj
    obtain ⟨a, b, rfl⟩ : ∃ a b, j = ix2 a b := ⟨j 0, j 1, eq_ix2 j⟩
    simp only [Finset.mem_filter, Finset.mem_univ, true_and] at hj
    obtain ⟨hT, hc⟩ := (resultIdx?_rows2 d hd a b idx n c).1 hj
    subst hc
    exact ⟨a, by simp only [Finset.mem_filter, Finset.mem_univ, true_and]; exact hT, rfl⟩
  · intro m _; rfl

/-- The row form stated on the printed operation: at the extended reals `Host.scatterAdd d x idx upd` is
    `Ideal.hostScatterAdd d x idx upd` (by definition), so it reads row-wise as above. -/
theorem scatterAdd_rows2 {N M C w : Nat} {φ : FTy} (d : ScatterDims ⟨2, ![N, C]⟩ ⟨2, ![M, 1]⟩ ⟨2, ![M, C]⟩)
    (hd : RowScatter2 d) (x : FVec Ideal ⟨2, ![N, C]⟩ φ) (idx : IVec ⟨2, ![M, 1]⟩ w)
    (upd : FVec Ideal ⟨2, ![M, C]⟩ φ) (n : Fin N) (c : Fin C) :
    Host.scatterAdd d x idx upd (ix2 n c)
      = x (ix2 n c) + ∑ m ∈ Finset.univ.filter (fun m : Fin M => (idx (ix2 m 0)).toInt = (n.val : Int)), upd (ix2 m c) :=
  hostScatterAdd_rows2 d hd x idx upd n c

/-- A sum over `Fin (M₁ + M₂)` filtered by a predicate splits over the first `M₁` and the last `M₂` positions. -/
theorem sum_filter_fin_add {α : Type*} [AddCommMonoid α] {M₁ M₂ : Nat} (q : Fin (M₁ + M₂) → Prop) [DecidablePred q]
    (f : Fin (M₁ + M₂) → α) :
    ∑ m ∈ Finset.univ.filter q, f m
      = ∑ m ∈ Finset.univ.filter (fun m : Fin M₁ => q (Fin.castAdd M₂ m)), f (Fin.castAdd M₂ m)
        + ∑ m ∈ Finset.univ.filter (fun m : Fin M₂ => q (Fin.natAdd M₁ m)), f (Fin.natAdd M₁ m) := by
  rw [Finset.sum_filter, Finset.sum_filter, Finset.sum_filter, Fin.sum_univ_add]

/-- Row `m` of the first `M₁` rows is below `M = M₁ + M₂`. -/
theorem lt_of_left {M M₁ M₂ : Nat} (hM : M = M₁ + M₂) (m : Fin M₁) : m.val < M := by have := m.isLt; omega
/-- Row `M₁ + m`, `m` among the last `M₂` rows, is below `M = M₁ + M₂`. -/
theorem lt_of_right {M M₁ M₂ : Nat} (hM : M = M₁ + M₂) (m : Fin M₂) : M₁ + m.val < M := by have := m.isLt; omega

/-- THE ROW FORM OVER TWO STACKED BLOCKS: with `M = M₁ + M₂` update rows, the accumulating scatter at `(n, c)` is the
    operand there plus the sum over the rows `m < M₁` whose index is `n` plus the sum over the rows `M₁ + m`, `m < M₂`,
    whose index is `n`. -/
theorem hostScatterAdd_rows2_halves {N M M₁ M₂ C w : Nat} (hM : M = M₁ + M₂)
    (d : ScatterDims ⟨2, ![N, C]⟩ ⟨2, ![M, 1]⟩ ⟨2, ![M, C]⟩) (hd : RowScatter2 d)
    (x : (⟨2, ![N, C]⟩ : Shape).Idx → EReal) (idx : IVec ⟨2, ![M, 1]⟩ w)
    (upd : (⟨2, ![M, C]⟩ : Shape).Idx → EReal) (n : Fin N) (c : Fin C) :
    Ideal.hostScatterAdd d x idx upd (ix2 n c)
      = x (ix2 n c)
        + ∑ m ∈ Finset.univ.filter (fun m : Fin M₁ => (idx (ix2 ⟨m.val, lt_of_left hM m⟩ 0)).toInt = (n.val : Int)),
            upd (ix2 ⟨m.val, lt_of_left hM m⟩ c)
        + ∑ m ∈ Finset.univ.filter (fun m : Fin M₂ => (idx (ix2 ⟨M₁ + m.val, lt_of_right hM m⟩ 0)).toInt = (n.val : Int)),
            upd (ix2 ⟨M₁ + m.val, lt_of_right hM m⟩ c) := by
  subst hM
  rw [hostScatterAdd_rows2 d hd, add_assoc]
  congr 1
  exact sum_filter_fin_add (fun m : Fin (M₁ + M₂) => (idx (ix2 m 0)).toInt = (n.val : Int)) (fun m => upd (ix2 m c))

/-- THE MERGE LAW at rank 2: if the index column `idx : [M, 1]` reads (signed) as `i₁` on its first `M₁` rows and as
    `i₂` on its last `M₂`, and the updates `upd : [M, C]` are `u₁` on the first `M₁` rows and `u₂` on the last `M₂`
    (`M = M₁ + M₂`), then scattering `upd` at `idx` into `x` is scattering `u₁` at `i₁` into `x` and then `u₂` at `i₂`
    into the result. No finiteness: the extended reals' addition is commutative and associative. The index words'
    widths may differ. -/
theorem hostScatterAdd_rows2_merge {N M M₁ M₂ C w w₁ w₂ : Nat} (hM : M = M₁ + M₂)
    (d : ScatterDims ⟨2, ![N, C]⟩ ⟨2, ![M, 1]⟩ ⟨2, ![M, C]⟩) (hd : RowScatter2 d)
    (d₁ : ScatterDims ⟨2, ![N, C]⟩ ⟨2, ![M₁, 1]⟩ ⟨2, ![M₁, C]⟩) (hd₁ : RowScatter2 d₁)
    (d₂ : ScatterDims ⟨2, ![N, C]⟩ ⟨2, ![M₂, 1]⟩ ⟨2, ![M₂, C]⟩) (hd₂ : RowScatter2 d₂)
    (x : (⟨2, ![N, C]⟩ : Shape).Idx → EReal)
    (idx : IVec ⟨2, ![M, 1]⟩ w) (i₁ : IVec ⟨2, ![M₁, 1]⟩ w₁) (i₂ : IVec ⟨2, ![M₂, 1]⟩ w₂)
    (upd : (⟨2, ![M, C]⟩ : Shape).Idx → EReal) (u₁ : (⟨2, ![M₁, C]⟩ : Shape).Idx → EReal)
    (u₂ : (⟨2, ![M₂, C]⟩ : Shape).Idx → EReal)
    (hi₁ : ∀ m : Fin M₁, (idx (ix2 ⟨m.val, lt_of_left hM m⟩ 0)).toInt = (i₁ (ix2 m 0)).toInt)
    (hi₂ : ∀ m : Fin M₂, (idx (ix2 ⟨M₁ + m.val, lt_of_right hM m⟩ 0)).toInt = (i₂ (ix2 m 0)).toInt)
    (hu₁ : ∀ (m : Fin M₁) (c : Fin C), upd (ix2 ⟨m.val, lt_of_left hM m⟩ c) = u₁ (ix2 m c))
    (hu₂ : ∀ (m : Fin M₂) (c : Fin C), upd (ix2 ⟨M₁ + m.val, lt_of_right hM m⟩ c) = u₂ (ix2 m c)) :
    Ideal.hostScatterAdd d x idx upd = Ideal.hostScatterAdd d₂ (Ideal.hostScatterAdd d₁ x i₁ u₁) i₂ u₂ := by
  funext j
  obtain ⟨n, c, rfl⟩ : ∃ n c, j = ix2 n c := ⟨j 0, j 1, eq_ix2 j⟩
  rw [hostScatterAdd_rows2_halves hM d hd, hostScatterAdd_rows2 d₂ hd₂, hostScatterAdd_rows2 d₁ hd₁]
  congr 1
  · congr 1
    exact Finset.sum_congr (Finset.filter_congr fun m _ => by rw [hi₁]) fun m _ => hu₁ m c
  · exact Finset.sum_congr (Finset.filter_congr fun m _ => by rw [hi₂]) fun m _ => hu₂ m c

/-! ## A two-block concatenation along axis 0 read at a row -/

/-- A concatenation of `[M₁, C]` and `[M₂, C]` along axis 0, read at a row `j` of the first block (`j = m < M₁`):
    the first block at `(m, c)`. -/
theorem concatenate_rows2_left {α : Type} {M M₁ M₂ C : Nat} (x₁ : (⟨2, ![M₁, C]⟩ : Shape).Idx → α)
    (x₂ : (⟨2, ![M₂, C]⟩ : Shape).Idx → α)
    (h : Shape.Concatenates [⟨2, ![M₁, C]⟩, ⟨2, ![M₂, C]⟩] ⟨2, ![M, C]⟩ 0) (j : Fin M) (m : Fin M₁) (c : Fin C)
    (hj : j.val = m.val) :
    concatenate ⟨2, ![M, C]⟩ 0 [⟨⟨2, ![M₁, C]⟩, x₁⟩, ⟨⟨2, ![M₂, C]⟩, x₂⟩] h (ix2 j c) = x₁ (ix2 m c) := by
  refine concatenate_pair_apply_left (0 : Fin 2) x₁ x₂ h (ix2 j c) rfl (ix2 m c) fun b => ?_
  match b with
  | ⟨0, _⟩ => exact hj.symm
  | ⟨1, _⟩ => rfl

/-- A concatenation of `[M₁, C]` and `[M₂, C]` along axis 0, read at a row `j` of the second block (`j = M₁ + m`,
    `m < M₂`): the second block at `(m, c)`. -/
theorem concatenate_rows2_right {α : Type} {M M₁ M₂ C : Nat} (x₁ : (⟨2, ![M₁, C]⟩ : Shape).Idx → α)
    (x₂ : (⟨2, ![M₂, C]⟩ : Shape).Idx → α)
    (h : Shape.Concatenates [⟨2, ![M₁, C]⟩, ⟨2, ![M₂, C]⟩] ⟨2, ![M, C]⟩ 0) (j : Fin M) (m : Fin M₂) (c : Fin C)
    (hj : j.val = M₁ + m.val) :
    concatenate ⟨2, ![M, C]⟩ 0 [⟨⟨2, ![M₁, C]⟩, x₁⟩, ⟨⟨2, ![M₂, C]⟩, x₂⟩] h (ix2 j c) = x₂ (ix2 m c) := by
  refine concatenate_pair_apply_right (0 : Fin 2) x₁ x₂ h (ix2 j c) rfl rfl (ix2 m c) (fun b hb => ?_) ?_
  · match b with
    | ⟨0, _⟩ => exact absurd rfl hb
    | ⟨1, _⟩ => rfl
  · show m.val + M₁ = j.val
    omega

/-- A concatenation of two vectors `[M₁]` and `[M₂]`, read at a position `j = m < M₁`: the first at `m`. -/
theorem concatenate_rows1_left {α : Type} {M M₁ M₂ : Nat} (x₁ : (⟨1, ![M₁]⟩ : Shape).Idx → α)
    (x₂ : (⟨1, ![M₂]⟩ : Shape).Idx → α)
    (h : Shape.Concatenates [⟨1, ![M₁]⟩, ⟨1, ![M₂]⟩] ⟨1, ![M]⟩ 0) (j : Fin M) (m : Fin M₁) (hj : j.val = m.val) :
    concatenate ⟨1, ![M]⟩ 0 [⟨⟨1, ![M₁]⟩, x₁⟩, ⟨⟨1, ![M₂]⟩, x₂⟩] h (ix1 j) = x₁ (ix1 m) := by
  refine concatenate_pair_apply_left (0 : Fin 1) x₁ x₂ h (ix1 j) rfl (ix1 m) fun b => ?_
  match b with
  | ⟨0, _⟩ => exact hj.symm

/-- A concatenation of two vectors `[M₁]` and `[M₂]`, read at a position `j = M₁ + m`, `m < M₂`: the second at `m`. -/
theorem concatenate_rows1_right {α : Type} {M M₁ M₂ : Nat} (x₁ : (⟨1, ![M₁]⟩ : Shape).Idx → α)
    (x₂ : (⟨1, ![M₂]⟩ : Shape).Idx → α)
    (h : Shape.Concatenates [⟨1, ![M₁]⟩, ⟨1, ![M₂]⟩] ⟨1, ![M]⟩ 0) (j : Fin M) (m : Fin M₂)
    (hj : j.val = M₁ + m.val) :
    concatenate ⟨1, ![M]⟩ 0 [⟨⟨1, ![M₁]⟩, x₁⟩, ⟨⟨1, ![M₂]⟩, x₂⟩] h (ix1 j) = x₂ (ix1 m) := by
  refine concatenate_pair_apply_right (0 : Fin 1) x₁ x₂ h (ix1 j) rfl rfl (ix1 m) (fun b hb => ?_) ?_
  · match b with
    | ⟨0, _⟩ => exact absurd rfl hb
  · show m.val + M₁ = j.val
    omega

/-- THE MERGE LAW AGAINST THE CONCATENATION at rank 2: scattering the concatenation (along axis 0) of two update blocks
    `u₁ : [M₁, C]`, `u₂ : [M₂, C]` at the concatenation of two index columns `i₁ : [M₁, 1]`, `i₂ : [M₂, 1]` into `x` is
    scattering `u₁` at `i₁` into `x` and then `u₂` at `i₂` into the result. -/
theorem hostScatterAdd_rows2_concat {N M M₁ M₂ C w : Nat} (hM : M = M₁ + M₂)
    (d : ScatterDims ⟨2, ![N, C]⟩ ⟨2, ![M, 1]⟩ ⟨2, ![M, C]⟩) (hd : RowScatter2 d)
    (d₁ : ScatterDims ⟨2, ![N, C]⟩ ⟨2, ![M₁, 1]⟩ ⟨2, ![M₁, C]⟩) (hd₁ : RowScatter2 d₁)
    (d₂ : ScatterDims ⟨2, ![N, C]⟩ ⟨2, ![M₂, 1]⟩ ⟨2, ![M₂, C]⟩) (hd₂ : RowScatter2 d₂)
    (x : (⟨2, ![N, C]⟩ : Shape).Idx → EReal) (i₁ : IVec ⟨2, ![M₁, 1]⟩ w) (i₂ : IVec ⟨2, ![M₂, 1]⟩ w)
    (u₁ : (⟨2, ![M₁, C]⟩ : Shape).Idx → EReal) (u₂ : (⟨2, ![M₂, C]⟩ : Shape).Idx → EReal)
    (hI : Shape.Concatenates [⟨2, ![M₁, 1]⟩, ⟨2, ![M₂, 1]⟩] ⟨2, ![M, 1]⟩ 0)
    (hU : Shape.Concatenates [⟨2, ![M₁, C]⟩, ⟨2, ![M₂, C]⟩] ⟨2, ![M, C]⟩ 0) :
    Ideal.hostScatterAdd d x (concatenate ⟨2, ![M, 1]⟩ 0 [⟨⟨2, ![M₁, 1]⟩, i₁⟩, ⟨⟨2, ![M₂, 1]⟩, i₂⟩] hI)
        (concatenate ⟨2, ![M, C]⟩ 0 [⟨⟨2, ![M₁, C]⟩, u₁⟩, ⟨⟨2, ![M₂, C]⟩, u₂⟩] hU)
      = Ideal.hostScatterAdd d₂ (Ideal.hostScatterAdd d₁ x i₁ u₁) i₂ u₂ :=
  hostScatterAdd_rows2_merge hM d hd d₁ hd₁ d₂ hd₂ x _ i₁ i₂ _ u₁ u₂
    (fun m => congrArg BitVec.toInt (concatenate_rows2_left i₁ i₂ hI _ m 0 rfl))
    (fun m => congrArg BitVec.toInt (concatenate_rows2_right i₁ i₂ hI _ m 0 rfl))
    (fun m c => concatenate_rows2_left u₁ u₂ hU _ m c rfl)
    (fun m c => concatenate_rows2_right u₁ u₂ hU _ m c rfl)

/-! ## Rank 3: operand `[N, A, B]`, indices `[M, 1]`, updates `[M, A, B]` -/

/-- The row pattern's dimension numbers at rank 3: `update_window_dims = [1, 2]`, `inserted_window_dims = [0]`,
    `scatter_dims_to_operand_dims = [0]`, `index_vector_dim = 1`. At a printed record: `⟨rfl, rfl, rfl, rfl⟩`. -/
structure RowScatter3 {N M A B : Nat} (d : ScatterDims ⟨3, ![N, A, B]⟩ ⟨2, ![M, 1]⟩ ⟨3, ![M, A, B]⟩) : Prop where
  uw : d.updateWindowDims = [1, 2]
  iw : d.insertedWindowDims = [0]
  sd : d.scatterDimsToOperandDims = [0]
  iv : d.indexVectorDim = 1

/-- Where an update element lands, in the row pattern at rank 3: update `(m, a, b)` lands on operand `(n, a', b')`
    exactly when row `m`'s index word, read signed, is `n`, and `a = a'`, `b = b'`. -/
theorem resultIdx?_rows3 {N M A B w : Nat} (d : ScatterDims ⟨3, ![N, A, B]⟩ ⟨2, ![M, 1]⟩ ⟨3, ![M, A, B]⟩)
    (hd : RowScatter3 d) (m : Fin M) (a : Fin A) (b : Fin B) (idx : IVec ⟨2, ![M, 1]⟩ w) (n : Fin N) (a' : Fin A)
    (b' : Fin B) :
    d.resultIdx? (ix3 m a b) idx = some (ix3 n a' b') ↔ (idx (ix2 m 0)).toInt = (n.val : Int) ∧ a = a' ∧ b = b' := by
  obtain ⟨hu, hi, hs, hv⟩ := hd
  obtain ⟨uw, iw, sd, iv, wf⟩ := d
  simp only at hu hi hs hv
  subst hu hi hs hv
  have hsi : ∀ (j : (⟨3, ![M, A, B]⟩ : Shape).Idx) (k : Fin 1),
      ScatterDims.siIdx (s := ⟨3, ![N, A, B]⟩) ⟨[1, 2], [0], [0], 1, wf⟩ j k = ix2 (j 0) 0 := by
    intro j k
    funext q
    match q with
    | ⟨0, _⟩ =>
      unfold ScatterDims.siIdx ScatterDims.siCoord
      rw [dif_neg (by simp)]
      apply Fin.ext
      show (j (([0] : List (Fin 3))[_]'_)).val = (j 0).val
      exact congrArg (fun t => (j t).val) (getElem_singleton_any _ _ _)
    | ⟨1, _⟩ => exact Subsingleton.elim (α := Fin 1) _ _
  have hst0 : ∀ j : (⟨3, ![M, A, B]⟩ : Shape).Idx,
      ScatterDims.start (s := ⟨3, ![N, A, B]⟩) ⟨[1, 2], [0], [0], 1, wf⟩ j idx 0 = (idx (ix2 (j 0) 0)).toInt := by
    intro j
    unfold ScatterDims.start
    rw [dif_pos (List.mem_singleton.2 rfl)]
    exact congrArg (fun t => (idx t).toInt) (hsi j _)
  have hst1 : ∀ j : (⟨3, ![M, A, B]⟩ : Shape).Idx,
      ScatterDims.start (s := ⟨3, ![N, A, B]⟩) ⟨[1, 2], [0], [0], 1, wf⟩ j idx 1 = 0 := by
    intro j
    unfold ScatterDims.start
    rw [dif_neg (by simp)]
  have hst2 : ∀ j : (⟨3, ![M, A, B]⟩ : Shape).Idx,
      ScatterDims.start (s := ⟨3, ![N, A, B]⟩) ⟨[1, 2], [0], [0], 1, wf⟩ j idx 2 = 0 := by
    intro j
    unfold ScatterDims.start
    rw [dif_neg (by simp)]
  have hw0 : ∀ j : (⟨3, ![M, A, B]⟩ : Shape).Idx,
      ScatterDims.window (s := ⟨3, ![N, A, B]⟩) (si := ⟨2, ![M, 1]⟩) ⟨[1, 2], [0], [0], 1, wf⟩ j 0 = 0 := by
    intro j
    have h0 : (0 : Fin 3) ∉ ScatterDims.sKept (s := ⟨3, ![N, A, B]⟩) (si := ⟨2, ![M, 1]⟩) (u := ⟨3, ![M, A, B]⟩)
        ⟨[1, 2], [0], [0], 1, wf⟩ := by
      show (0 : Fin 3) ∉ ([1, 2] : List (Fin 3)); simp
    unfold ScatterDims.window
    rw [dif_neg h0]
  have hw1 : ∀ j : (⟨3, ![M, A, B]⟩ : Shape).Idx,
      ScatterDims.window (s := ⟨3, ![N, A, B]⟩) (si := ⟨2, ![M, 1]⟩) ⟨[1, 2], [0], [0], 1, wf⟩ j 1 = (j 1).val := by
    intro j
    have h1 : (1 : Fin 3) ∈ ScatterDims.sKept (s := ⟨3, ![N, A, B]⟩) (si := ⟨2, ![M, 1]⟩) (u := ⟨3, ![M, A, B]⟩)
        ⟨[1, 2], [0], [0], 1, wf⟩ := by
      show (1 : Fin 3) ∈ ([1, 2] : List (Fin 3)); simp
    unfold ScatterDims.window
    rw [dif_pos h1]
    show (j (([1, 2] : List (Fin 3))[List.idxOf (1 : Fin 3) ([1, 2] : List (Fin 3))]'_)).val = (j 1).val
    exact congrArg (fun t => (j t).val) (List.getElem_idxOf _)
  have hw2 : ∀ j : (⟨3, ![M, A, B]⟩ : Shape).Idx,
      ScatterDims.window (s := ⟨3, ![N, A, B]⟩) (si := ⟨2, ![M, 1]⟩) ⟨[1, 2], [0], [0], 1, wf⟩ j 2 = (j 2).val := by
    intro j
    have h2 : (2 : Fin 3) ∈ ScatterDims.sKept (s := ⟨3, ![N, A, B]⟩) (si := ⟨2, ![M, 1]⟩) (u := ⟨3, ![M, A, B]⟩)
        ⟨[1, 2], [0], [0], 1, wf⟩ := by
      show (2 : Fin 3) ∈ ([1, 2] : List (Fin 3)); simp
    unfold ScatterDims.window
    rw [dif_pos h2]
    show (j (([1, 2] : List (Fin 3))[List.idxOf (2 : Fin 3) ([1, 2] : List (Fin 3))]'_)).val = (j 2).val
    exact congrArg (fun t => (j t).val) (List.getElem_idxOf _)
  constructor
  · intro h
    unfold ScatterDims.resultIdx? at h
    split at h
    · next hc =>
      have hf := Option.some.inj h
      have e0 := congrArg Fin.val (congrFun hf 0)
      have e1 := congrArg Fin.val (congrFun hf 1)
      have e2 := congrArg Fin.val (congrFun hf 2)
      have c0 := hc 0
      simp only [hst0, hw0] at e0 c0
      simp only [hst1, hw1] at e1
      simp only [hst2, hw2] at e2
      change ((idx (ix2 m 0)).toInt + ((0 : Nat) : Int)).toNat = n.val at e0
      change 0 ≤ (idx (ix2 m 0)).toInt + ((0 : Nat) : Int) ∧ _ at c0
      change (0 + ((a.val : Nat) : Int)).toNat = a'.val at e1
      change (0 + ((b.val : Nat) : Int)).toNat = b'.val at e2
      exact ⟨by omega, Fin.ext (by omega), Fin.ext (by omega)⟩
    · exact absurd h (by simp)
  · rintro ⟨hT, rfl, rfl⟩
    have hcond : ∀ q : Fin 3, 0 ≤ ScatterDims.start (s := ⟨3, ![N, A, B]⟩) ⟨[1, 2], [0], [0], 1, wf⟩ (ix3 m a b) idx q
          + (ScatterDims.window (s := ⟨3, ![N, A, B]⟩) (si := ⟨2, ![M, 1]⟩) ⟨[1, 2], [0], [0], 1, wf⟩ (ix3 m a b) q : Int) ∧
        ScatterDims.start (s := ⟨3, ![N, A, B]⟩) ⟨[1, 2], [0], [0], 1, wf⟩ (ix3 m a b) idx q
          + (ScatterDims.window (s := ⟨3, ![N, A, B]⟩) (si := ⟨2, ![M, 1]⟩) ⟨[1, 2], [0], [0], 1, wf⟩ (ix3 m a b) q : Int)
          < ((⟨3, ![N, A, B]⟩ : Shape).size q : Int) := by
      intro q
      match q with
      | ⟨0, _⟩ =>
        rw [show (⟨0, by omega⟩ : Fin 3) = 0 from rfl, hst0, hw0]
        change 0 ≤ (idx (ix2 m 0)).toInt + ((0 : Nat) : Int) ∧ (idx (ix2 m 0)).toInt + ((0 : Nat) : Int) < (N : Int)
        have := n.isLt
        omega
      | ⟨1, _⟩ =>
        rw [show (⟨1, by omega⟩ : Fin 3) = 1 from rfl, hst1, hw1]
        change 0 ≤ 0 + ((a.val : Nat) : Int) ∧ 0 + ((a.val : Nat) : Int) < (A : Int)
        have := a.isLt
        omega
      | ⟨2, _⟩ =>
        rw [show (⟨2, by omega⟩ : Fin 3) = 2 from rfl, hst2, hw2]
        change 0 ≤ 0 + ((b.val : Nat) : Int) ∧ 0 + ((b.val : Nat) : Int) < (B : Int)
        have := b.isLt
        omega
    unfold ScatterDims.resultIdx?
    rw [dif_pos hcond]
    congr 1
    funext q
    apply Fin.ext
    match q with
    | ⟨0, _⟩ =>
      show (ScatterDims.start (s := ⟨3, ![N, A, B]⟩) ⟨[1, 2], [0], [0], 1, wf⟩ (ix3 m a b) idx 0
          + (ScatterDims.window (s := ⟨3, ![N, A, B]⟩) (si := ⟨2, ![M, 1]⟩) ⟨[1, 2], [0], [0], 1, wf⟩ (ix3 m a b) 0 : Int)).toNat = n.val
      rw [hst0, hw0]
      change ((idx (ix2 m 0)).toInt + ((0 : Nat) : Int)).toNat = n.val
      omega
    | ⟨1, _⟩ =>
      show (ScatterDims.start (s := ⟨3, ![N, A, B]⟩) ⟨[1, 2], [0], [0], 1, wf⟩ (ix3 m a b) idx 1
          + (ScatterDims.window (s := ⟨3, ![N, A, B]⟩) (si := ⟨2, ![M, 1]⟩) ⟨[1, 2], [0], [0], 1, wf⟩ (ix3 m a b) 1 : Int)).toNat = a.val
      rw [hst1, hw1]
      change (0 + ((a.val : Nat) : Int)).toNat = a.val
      omega
    | ⟨2, _⟩ =>
      show (ScatterDims.start (s := ⟨3, ![N, A, B]⟩) ⟨[1, 2], [0], [0], 1, wf⟩ (ix3 m a b) idx 2
          + (ScatterDims.window (s := ⟨3, ![N, A, B]⟩) (si := ⟨2, ![M, 1]⟩) ⟨[1, 2], [0], [0], 1, wf⟩ (ix3 m a b) 2 : Int)).toNat = b.val
      rw [hst2, hw2]
      change (0 + ((b.val : Nat) : Int)).toNat = b.val
      omega

/-- THE ROW FORM at rank 3: the accumulating scatter at operand element `(n, a, b)` is the operand there plus the sum of
    `upd (m, a, b)` over the update rows `m` whose index word `idx (m, 0)`, read signed, is `n`. -/
theorem hostScatterAdd_rows3 {N M A B w : Nat} (d : ScatterDims ⟨3, ![N, A, B]⟩ ⟨2, ![M, 1]⟩ ⟨3, ![M, A, B]⟩)
    (hd : RowScatter3 d) (x : (⟨3, ![N, A, B]⟩ : Shape).Idx → EReal) (idx : IVec ⟨2, ![M, 1]⟩ w)
    (upd : (⟨3, ![M, A, B]⟩ : Shape).Idx → EReal) (n : Fin N) (a : Fin A) (b : Fin B) :
    Ideal.hostScatterAdd d x idx upd (ix3 n a b)
      = x (ix3 n a b)
        + ∑ m ∈ Finset.univ.filter (fun m : Fin M => (idx (ix2 m 0)).toInt = (n.val : Int)), upd (ix3 m a b) := by
  unfold Ideal.hostScatterAdd
  congr 1
  symm
  refine Finset.sum_bij (fun m _ => ix3 m a b) ?_ ?_ ?_ ?_
  · intro m hm
    simp only [Finset.mem_filter, Finset.mem_univ, true_and] at hm ⊢
    exact (resultIdx?_rows3 d hd m a b idx n a b).2 ⟨hm, rfl, rfl⟩
  · intro m₁ _ m₂ _ h
    exact congrFun h 0
  · intro j hj
    obtain ⟨m, a₀, b₀, rfl⟩ : ∃ m a₀ b₀, j = ix3 m a₀ b₀ := ⟨j 0, j 1, j 2, eq_ix3 j⟩
    simp only [Finset.mem_filter, Finset.mem_univ, true_and] at hj
    obtain ⟨hT, ha, hb⟩ := (resultIdx?_rows3 d hd m a₀ b₀ idx n a b).1 hj
    subst ha hb
    exact ⟨m, by simp only [Finset.mem_filter, Finset.mem_univ, true_and]; exact hT, rfl⟩
  · intro m _; rfl

/-- The rank-3 row form stated on the printed operation (at the extended reals `Host.scatterAdd` is
    `Ideal.hostScatterAdd` by definition). -/
theorem scatterAdd_rows3 {N M A B w : Nat} {φ : FTy} (d : ScatterDims ⟨3, ![N, A, B]⟩ ⟨2, ![M, 1]⟩ ⟨3, ![M, A, B]⟩)
    (hd : RowScatter3 d) (x : FVec Ideal ⟨3, ![N, A, B]⟩ φ) (idx : IVec ⟨2, ![M, 1]⟩ w)
    (upd : FVec Ideal ⟨3, ![M, A, B]⟩ φ) (n : Fin N) (a : Fin A) (b : Fin B) :
    Host.scatterAdd d x idx upd (ix3 n a b)
      = x (ix3 n a b)
        + ∑ m ∈ Finset.univ.filter (fun m : Fin M => (idx (ix2 m 0)).toInt = (n.val : Int)), upd (ix3 m a b) :=
  hostScatterAdd_rows3 d hd x idx upd n a b

/-- A rank-3 row scatter of updates `[M, A, B]` and the rank-2 row scatter of the same updates flattened to
    `[M, A * B]`-style columns agree row-wise whenever the two update arrays agree elementwise and the operands do: both
    are "operand plus the sum over the rows whose index is `n`". Stated at one element: if `x₃ (n, a, b) = x₂ (n, c)`
    and `u₃ (m, a, b) = u₂ (m, c)` for every row `m`, and the two index columns read the same signed words, the two
    scatters agree at `(n, a, b)` / `(n, c)`. -/
theorem hostScatterAdd_rows3_eq_rows2 {N M A B C w w' : Nat}
    (d₃ : ScatterDims ⟨3, ![N, A, B]⟩ ⟨2, ![M, 1]⟩ ⟨3, ![M, A, B]⟩) (hd₃ : RowScatter3 d₃)
    (d₂ : ScatterDims ⟨2, ![N, C]⟩ ⟨2, ![M, 1]⟩ ⟨2, ![M, C]⟩) (hd₂ : RowScatter2 d₂)
    (x₃ : (⟨3, ![N, A, B]⟩ : Shape).Idx → EReal) (x₂ : (⟨2, ![N, C]⟩ : Shape).Idx → EReal)
    (i₃ : IVec ⟨2, ![M, 1]⟩ w) (i₂ : IVec ⟨2, ![M, 1]⟩ w')
    (u₃ : (⟨3, ![M, A, B]⟩ : Shape).Idx → EReal) (u₂ : (⟨2, ![M, C]⟩ : Shape).Idx → EReal)
    (n : Fin N) (a : Fin A) (b : Fin B) (c : Fin C)
    (hx : x₃ (ix3 n a b) = x₂ (ix2 n c)) (hi : ∀ m : Fin M, (i₃ (ix2 m 0)).toInt = (i₂ (ix2 m 0)).toInt)
    (hu : ∀ m : Fin M, u₃ (ix3 m a b) = u₂ (ix2 m c)) :
    Ideal.hostScatterAdd d₃ x₃ i₃ u₃ (ix3 n a b) = Ideal.hostScatterAdd d₂ x₂ i₂ u₂ (ix2 n c) := by
  rw [hostScatterAdd_rows3 d₃ hd₃, hostScatterAdd_rows2 d₂ hd₂, hx]
  congr 1
  exact Finset.sum_congr (Finset.filter_congr fun m _ => by rw [hi]) fun m _ => hu m

/-! ## The merged rank-2 scatter against two successive rank-3 scatters -/

/-- THE MERGE LAW ACROSS RANKS, at one element: a rank-2 row scatter of `M = M₁ + M₂` update rows `[M, C]` into
    `x₂ : [N, C]`, read at `(n, c)`, is the rank-3 row scatter of `u₁ : [M₁, A, B]` at `i₁` into `x₃ : [N, A, B]` followed by
    that of `u₂ : [M₂, A, B]` at `i₂`, read at `(n, a, b)`, whenever at that element the operands agree, the index column
    reads (signed) as `i₁` on its first `M₁` rows and as `i₂` on its last `M₂`, and column `c` of the updates is
    `u₁ (·, a, b)` on the first `M₁` rows and `u₂ (·, a, b)` on the last `M₂`. -/
theorem hostScatterAdd_rows2_merge_rows3 {N M M₁ M₂ A B C w w₁ w₂ : Nat} (hM : M = M₁ + M₂)
    (d : ScatterDims ⟨2, ![N, C]⟩ ⟨2, ![M, 1]⟩ ⟨2, ![M, C]⟩) (hd : RowScatter2 d)
    (d₁ : ScatterDims ⟨3, ![N, A, B]⟩ ⟨2, ![M₁, 1]⟩ ⟨3, ![M₁, A, B]⟩) (hd₁ : RowScatter3 d₁)
    (d₂ : ScatterDims ⟨3, ![N, A, B]⟩ ⟨2, ![M₂, 1]⟩ ⟨3, ![M₂, A, B]⟩) (hd₂ : RowScatter3 d₂)
    (x₂ : (⟨2, ![N, C]⟩ : Shape).Idx → EReal) (x₃ : (⟨3, ![N, A, B]⟩ : Shape).Idx → EReal)
    (idx : IVec ⟨2, ![M, 1]⟩ w) (i₁ : IVec ⟨2, ![M₁, 1]⟩ w₁) (i₂ : IVec ⟨2, ![M₂, 1]⟩ w₂)
    (upd : (⟨2, ![M, C]⟩ : Shape).Idx → EReal) (u₁ : (⟨3, ![M₁, A, B]⟩ : Shape).Idx → EReal)
    (u₂ : (⟨3, ![M₂, A, B]⟩ : Shape).Idx → EReal) (n : Fin N) (a : Fin A) (b : Fin B) (c : Fin C)
    (hx : x₂ (ix2 n c) = x₃ (ix3 n a b))
    (hi₁ : ∀ m : Fin M₁, (idx (ix2 ⟨m.val, lt_of_left hM m⟩ 0)).toInt = (i₁ (ix2 m 0)).toInt)
    (hi₂ : ∀ m : Fin M₂, (idx (ix2 ⟨M₁ + m.val, lt_of_right hM m⟩ 0)).toInt = (i₂ (ix2 m 0)).toInt)
    (hu₁ : ∀ m : Fin M₁, upd (ix2 ⟨m.val, lt_of_left hM m⟩ c) = u₁ (ix3 m a b))
    (hu₂ : ∀ m : Fin M₂, upd (ix2 ⟨M₁ + m.val, lt_of_right hM m⟩ c) = u₂ (ix3 m a b)) :
    Ideal.hostScatterAdd d x₂ idx upd (ix2 n c)
      = Ideal.hostScatterAdd d₂ (Ideal.hostScatterAdd d₁ x₃ i₁ u₁) i₂ u₂ (ix3 n a b) := by
  rw [hostScatterAdd_rows2_halves hM d hd, hostScatterAdd_rows3 d₂ hd₂, hostScatterAdd_rows3 d₁ hd₁, hx]
  congr 1
  · congr 1
    exact Finset.sum_congr (Finset.filter_congr fun m _ => by rw [hi₁]) fun m _ => hu₁ m
  · exact Finset.sum_congr (Finset.filter_congr fun m _ => by rw [hi₂]) fun m _ => hu₂ m

/-- THE MERGE LAW at rank 2, at one element (the pointwise form of `hostScatterAdd_rows2_merge`, its hypotheses asked
    only at the column `c` read). -/
theorem hostScatterAdd_rows2_merge_at {N M M₁ M₂ C w w₁ w₂ : Nat} (hM : M = M₁ + M₂)
    (d : ScatterDims ⟨2, ![N, C]⟩ ⟨2, ![M, 1]⟩ ⟨2, ![M, C]⟩) (hd : RowScatter2 d)
    (d₁ : ScatterDims ⟨2, ![N, C]⟩ ⟨2, ![M₁, 1]⟩ ⟨2, ![M₁, C]⟩) (hd₁ : RowScatter2 d₁)
    (d₂ : ScatterDims ⟨2, ![N, C]⟩ ⟨2, ![M₂, 1]⟩ ⟨2, ![M₂, C]⟩) (hd₂ : RowScatter2 d₂)
    (x x' : (⟨2, ![N, C]⟩ : Shape).Idx → EReal)
    (idx : IVec ⟨2, ![M, 1]⟩ w) (i₁ : IVec ⟨2, ![M₁, 1]⟩ w₁) (i₂ : IVec ⟨2, ![M₂, 1]⟩ w₂)
    (upd : (⟨2, ![M, C]⟩ : Shape).Idx → EReal) (u₁ : (⟨2, ![M₁, C]⟩ : Shape).Idx → EReal)
    (u₂ : (⟨2, ![M₂, C]⟩ : Shape).Idx → EReal) (n : Fin N) (c : Fin C)
    (hx : x (ix2 n c) = x' (ix2 n c))
    (hi₁ : ∀ m : Fin M₁, (idx (ix2 ⟨m.val, lt_of_left hM m⟩ 0)).toInt = (i₁ (ix2 m 0)).toInt)
    (hi₂ : ∀ m : Fin M₂, (idx (ix2 ⟨M₁ + m.val, lt_of_right hM m⟩ 0)).toInt = (i₂ (ix2 m 0)).toInt)
    (hu₁ : ∀ m : Fin M₁, upd (ix2 ⟨m.val, lt_of_left hM m⟩ c) = u₁ (ix2 m c))
    (hu₂ : ∀ m : Fin M₂, upd (ix2 ⟨M₁ + m.val, lt_of_right hM m⟩ c) = u₂ (ix2 m c)) :
    Ideal.hostScatterAdd d x idx upd (ix2 n c)
      = Ideal.hostScatterAdd d₂ (Ideal.hostScatterAdd d₁ x' i₁ u₁) i₂ u₂ (ix2 n c) := by
  rw [hostScatterAdd_rows2_halves hM d hd, hostScatterAdd_rows2 d₂ hd₂, hostScatterAdd_rows2 d₁ hd₁, hx]
  congr 1
  · congr 1
    exact Finset.sum_congr (Finset.filter_congr fun m _ => by rw [hi₁]) fun m _ => hu₁ m
  · exact Finset.sum_congr (Finset.filter_congr fun m _ => by rw [hi₂]) fun m _ => hu₂ m

/-! ## An index column broadcast from an index vector -/

/-- A vector `[M]` broadcast to a column `[M, 1]` (`broadcast_in_dim` with `dims = [0]`), read at row `j`: the vector
    at `j`. -/
theorem broadcastInDim_col_apply {α : Type} {M : Nat}
    (h : (⟨1, ![M]⟩ : Shape).BroadcastsInDim ⟨2, ![M, 1]⟩ (![0] : Fin 1 → Fin 2))
    (x : (⟨1, ![M]⟩ : Shape).Idx → α) (j : Fin M) (k : Fin 1) :
    broadcastInDim ⟨2, ![M, 1]⟩ ![0] h x (ix2 j k) = x (ix1 j) := by
  refine broadcastInDim_apply _ h x (ix2 j k) (ix1 j) fun a => ?_
  match a with
  | ⟨0, _⟩ =>
    show j.val = if M = 1 then 0 else j.val
    split
    · next h1 => have := j.isLt; omega
    · rfl

/-! ## The index wrap, and the merged index column of two stacked index vectors -/

/-- A negative index word counted from the end: `v + n` where `v` is negative (read signed), else `v`. -/
def wrapW (n v : BitVec 32) : BitVec 32 := Scalar.select (IntOp.cmpi .slt v 0#32) (IntOp.addi v n) v

/-- The wrap of an index array of shape `s` by `n`, operation by operation: where the word is negative (the signed
    comparison with the broadcast constant `0`) the word plus the broadcast constant `n`, elsewhere the word. -/
abbrev wrapI (s : Shape) (hb : (⟨0, ![]⟩ : Shape).BroadcastsInDim s (![] : Fin 0 → Fin s.rank)) (n : BitVec 32)
    (x : IVec s 32) : IVec s 32 :=
  select (cmpi .slt x (broadcastInDim s ![] hb (constantI ⟨0, ![]⟩ 32 0#32)))
    (addi x (broadcastInDim s ![] hb (constantI ⟨0, ![]⟩ 32 n))) x

/-- The wrap acts word by word. -/
theorem wrapI_apply (s : Shape) (hb : (⟨0, ![]⟩ : Shape).BroadcastsInDim s (![] : Fin 0 → Fin s.rank)) (n : BitVec 32)
    (x : IVec s 32) (i : s.Idx) : wrapI s hb n x i = wrapW n (x i) := rfl

/-- The wrapped index column of an index vector `[M]`: the vector wrapped by `n` and broadcast to a column `[M, 1]`. -/
abbrev wrapCol {M : Nat} (hb : (⟨0, ![]⟩ : Shape).BroadcastsInDim ⟨1, ![M]⟩ (![] : Fin 0 → Fin 1))
    (hc : (⟨1, ![M]⟩ : Shape).BroadcastsInDim ⟨2, ![M, 1]⟩ (![0] : Fin 1 → Fin 2)) (n : BitVec 32)
    (v : IVec ⟨1, ![M]⟩ 32) : IVec ⟨2, ![M, 1]⟩ 32 :=
  broadcastInDim ⟨2, ![M, 1]⟩ ![0] hc (wrapI ⟨1, ![M]⟩ hb n v)

/-- The wrapped index column at row `j`: the wrap of the vector's word `j`. -/
theorem wrapCol_apply {M : Nat} (hb : (⟨0, ![]⟩ : Shape).BroadcastsInDim ⟨1, ![M]⟩ (![] : Fin 0 → Fin 1))
    (hc : (⟨1, ![M]⟩ : Shape).BroadcastsInDim ⟨2, ![M, 1]⟩ (![0] : Fin 1 → Fin 2)) (n : BitVec 32)
    (v : IVec ⟨1, ![M]⟩ 32) (j : Fin M) (k : Fin 1) : wrapCol hb hc n v (ix2 j k) = wrapW n (v (ix1 j)) := by
  unfold wrapCol
  rw [broadcastInDim_col_apply]
  rfl

/-- Wrapping after stacking is wrapping before, on the first block: the wrapped column of the concatenation of
    `t₁ : [M₁]` and `t₂ : [M₂]`, at a row `j = m < M₁`, is the wrapped column of `t₁` at `m`. -/
theorem wrapCol_concat_left {M M₁ M₂ : Nat}
    (hbM : (⟨0, ![]⟩ : Shape).BroadcastsInDim ⟨1, ![M]⟩ (![] : Fin 0 → Fin 1))
    (hcM : (⟨1, ![M]⟩ : Shape).BroadcastsInDim ⟨2, ![M, 1]⟩ (![0] : Fin 1 → Fin 2))
    (hb₁ : (⟨0, ![]⟩ : Shape).BroadcastsInDim ⟨1, ![M₁]⟩ (![] : Fin 0 → Fin 1))
    (hc₁ : (⟨1, ![M₁]⟩ : Shape).BroadcastsInDim ⟨2, ![M₁, 1]⟩ (![0] : Fin 1 → Fin 2))
    (hI : Shape.Concatenates [⟨1, ![M₁]⟩, ⟨1, ![M₂]⟩] ⟨1, ![M]⟩ 0) (n : BitVec 32)
    (t₁ : IVec ⟨1, ![M₁]⟩ 32) (t₂ : IVec ⟨1, ![M₂]⟩ 32) (j : Fin M) (m : Fin M₁) (hj : j.val = m.val) (k : Fin 1) :
    wrapCol hbM hcM n (concatenate ⟨1, ![M]⟩ 0 [⟨⟨1, ![M₁]⟩, t₁⟩, ⟨⟨1, ![M₂]⟩, t₂⟩] hI) (ix2 j k)
      = wrapCol hb₁ hc₁ n t₁ (ix2 m k) := by
  rw [wrapCol_apply, wrapCol_apply, concatenate_rows1_left t₁ t₂ hI j m hj]

/-- Wrapping after stacking is wrapping before, on the second block: at a row `j = M₁ + m`, `m < M₂`, the wrapped
    column of the concatenation is the wrapped column of `t₂` at `m`. -/
theorem wrapCol_concat_right {M M₁ M₂ : Nat}
    (hbM : (⟨0, ![]⟩ : Shape).BroadcastsInDim ⟨1, ![M]⟩ (![] : Fin 0 → Fin 1))
    (hcM : (⟨1, ![M]⟩ : Shape).BroadcastsInDim ⟨2, ![M, 1]⟩ (![0] : Fin 1 → Fin 2))
    (hb₂ : (⟨0, ![]⟩ : Shape).BroadcastsInDim ⟨1, ![M₂]⟩ (![] : Fin 0 → Fin 1))
    (hc₂ : (⟨1, ![M₂]⟩ : Shape).BroadcastsInDim ⟨2, ![M₂, 1]⟩ (![0] : Fin 1 → Fin 2))
    (hI : Shape.Concatenates [⟨1, ![M₁]⟩, ⟨1, ![M₂]⟩] ⟨1, ![M]⟩ 0) (n : BitVec 32)
    (t₁ : IVec ⟨1, ![M₁]⟩ 32) (t₂ : IVec ⟨1, ![M₂]⟩ 32) (j : Fin M) (m : Fin M₂) (hj : j.val = M₁ + m.val)
    (k : Fin 1) :
    wrapCol hbM hcM n (concatenate ⟨1, ![M]⟩ 0 [⟨⟨1, ![M₁]⟩, t₁⟩, ⟨⟨1, ![M₂]⟩, t₂⟩] hI) (ix2 j k)
      = wrapCol hb₂ hc₂ n t₂ (ix2 m k) := by
  rw [wrapCol_apply, wrapCol_apply, concatenate_rows1_right t₁ t₂ hI j m hj]

/-- THE MERGED SCATTER, whole arrays at rank 2: ONE scatter of two stacked update blocks `u₁ : [M₁, C]`, `u₂ : [M₂, C]`
    at the wrapped column of two stacked index vectors `t₁ : [M₁]`, `t₂ : [M₂]` (wrapped AFTER stacking) is the scatter
    of `u₁` at the wrapped column of `t₁` followed by the scatter of `u₂` at the wrapped column of `t₂` (each wrapped
    BEFORE). -/
theorem hostScatterAdd_rows2_wrapcat {N M M₁ M₂ C : Nat} (hM : M = M₁ + M₂)
    (d : ScatterDims ⟨2, ![N, C]⟩ ⟨2, ![M, 1]⟩ ⟨2, ![M, C]⟩) (hd : RowScatter2 d)
    (d₁ : ScatterDims ⟨2, ![N, C]⟩ ⟨2, ![M₁, 1]⟩ ⟨2, ![M₁, C]⟩) (hd₁ : RowScatter2 d₁)
    (d₂ : ScatterDims ⟨2, ![N, C]⟩ ⟨2, ![M₂, 1]⟩ ⟨2, ![M₂, C]⟩) (hd₂ : RowScatter2 d₂)
    (hbM : (⟨0, ![]⟩ : Shape).BroadcastsInDim ⟨1, ![M]⟩ (![] : Fin 0 → Fin 1))
    (hcM : (⟨1, ![M]⟩ : Shape).BroadcastsInDim ⟨2, ![M, 1]⟩ (![0] : Fin 1 → Fin 2))
    (hb₁ : (⟨0, ![]⟩ : Shape).BroadcastsInDim ⟨1, ![M₁]⟩ (![] : Fin 0 → Fin 1))
    (hc₁ : (⟨1, ![M₁]⟩ : Shape).BroadcastsInDim ⟨2, ![M₁, 1]⟩ (![0] : Fin 1 → Fin 2))
    (hb₂ : (⟨0, ![]⟩ : Shape).BroadcastsInDim ⟨1, ![M₂]⟩ (![] : Fin 0 → Fin 1))
    (hc₂ : (⟨1, ![M₂]⟩ : Shape).BroadcastsInDim ⟨2, ![M₂, 1]⟩ (![0] : Fin 1 → Fin 2))
    (hI : Shape.Concatenates [⟨1, ![M₁]⟩, ⟨1, ![M₂]⟩] ⟨1, ![M]⟩ 0)
    (hU : Shape.Concatenates [⟨2, ![M₁, C]⟩, ⟨2, ![M₂, C]⟩] ⟨2, ![M, C]⟩ 0) (n : BitVec 32)
    (x : (⟨2, ![N, C]⟩ : Shape).Idx → EReal) (t₁ : IVec ⟨1, ![M₁]⟩ 32) (t₂ : IVec ⟨1, ![M₂]⟩ 32)
    (u₁ : (⟨2, ![M₁, C]⟩ : Shape).Idx → EReal) (u₂ : (⟨2, ![M₂, C]⟩ : Shape).Idx → EReal) :
    Ideal.hostScatterAdd d x
        (wrapCol hbM hcM n (concatenate ⟨1, ![M]⟩ 0 [⟨⟨1, ![M₁]⟩, t₁⟩, ⟨⟨1, ![M₂]⟩, t₂⟩] hI))
        (concatenate ⟨2, ![M, C]⟩ 0 [⟨⟨2, ![M₁, C]⟩, u₁⟩, ⟨⟨2, ![M₂, C]⟩, u₂⟩] hU)
      = Ideal.hostScatterAdd d₂ (Ideal.hostScatterAdd d₁ x (wrapCol hb₁ hc₁ n t₁) u₁) (wrapCol hb₂ hc₂ n t₂) u₂ :=
  hostScatterAdd_rows2_merge hM d hd d₁ hd₁ d₂ hd₂ x _ _ _ _ u₁ u₂
    (fun m => congrArg BitVec.toInt (wrapCol_concat_left hbM hcM hb₁ hc₁ hI n t₁ t₂ _ m rfl 0))
    (fun m => congrArg BitVec.toInt (wrapCol_concat_right hbM hcM hb₂ hc₂ hI n t₁ t₂ _ m rfl 0))
    (fun m c => concatenate_rows2_left u₁ u₂ hU _ m c rfl)
    (fun m c => concatenate_rows2_right u₁ u₂ hU _ m c rfl)

/-- THE MERGED SCATTER AGAINST TWO RANK-3 SCATTERS, at one element: ONE rank-2 scatter of two stacked update blocks
    `u₁ : [M₁, C]`, `u₂ : [M₂, C]` at the wrapped column of two stacked index vectors, read at `(k, c)`, is the rank-3
    scatter of `v₁ : [M₁, A, B]` at the wrapped column of `t₁` followed by that of `v₂ : [M₂, A, B]` at the wrapped column
    of `t₂`, read at `(k, a, b)`, whenever the operands agree at that element and column `c` of `u₁`, `u₂` is
    `v₁ (·, a, b)`, `v₂ (·, a, b)`. -/
theorem hostScatterAdd_rows2_wrapcat_rows3 {N M M₁ M₂ A B C : Nat} (hM : M = M₁ + M₂)
    (d : ScatterDims ⟨2, ![N, C]⟩ ⟨2, ![M, 1]⟩ ⟨2, ![M, C]⟩) (hd : RowScatter2 d)
    (d₁ : ScatterDims ⟨3, ![N, A, B]⟩ ⟨2, ![M₁, 1]⟩ ⟨3, ![M₁, A, B]⟩) (hd₁ : RowScatter3 d₁)
    (d₂ : ScatterDims ⟨3, ![N, A, B]⟩ ⟨2, ![M₂, 1]⟩ ⟨3, ![M₂, A, B]⟩) (hd₂ : RowScatter3 d₂)
    (hbM : (⟨0, ![]⟩ : Shape).BroadcastsInDim ⟨1, ![M]⟩ (![] : Fin 0 → Fin 1))
    (hcM : (⟨1, ![M]⟩ : Shape).BroadcastsInDim ⟨2, ![M, 1]⟩ (![0] : Fin 1 → Fin 2))
    (hb₁ : (⟨0, ![]⟩ : Shape).BroadcastsInDim ⟨1, ![M₁]⟩ (![] : Fin 0 → Fin 1))
    (hc₁ : (⟨1, ![M₁]⟩ : Shape).BroadcastsInDim ⟨2, ![M₁, 1]⟩ (![0] : Fin 1 → Fin 2))
    (hb₂ : (⟨0, ![]⟩ : Shape).BroadcastsInDim ⟨1, ![M₂]⟩ (![] : Fin 0 → Fin 1))
    (hc₂ : (⟨1, ![M₂]⟩ : Shape).BroadcastsInDim ⟨2, ![M₂, 1]⟩ (![0] : Fin 1 → Fin 2))
    (hI : Shape.Concatenates [⟨1, ![M₁]⟩, ⟨1, ![M₂]⟩] ⟨1, ![M]⟩ 0)
    (hU : Shape.Concatenates [⟨2, ![M₁, C]⟩, ⟨2, ![M₂, C]⟩] ⟨2, ![M, C]⟩ 0) (n : BitVec 32)
    (x₂ : (⟨2, ![N, C]⟩ : Shape).Idx → EReal) (x₃ : (⟨3, ![N, A, B]⟩ : Shape).Idx → EReal)
    (t₁ : IVec ⟨1, ![M₁]⟩ 32) (t₂ : IVec ⟨1, ![M₂]⟩ 32)
    (u₁ : (⟨2, ![M₁, C]⟩ : Shape).Idx → EReal) (u₂ : (⟨2, ![M₂, C]⟩ : Shape).Idx → EReal)
    (v₁ : (⟨3, ![M₁, A, B]⟩ : Shape).Idx → EReal) (v₂ : (⟨3, ![M₂, A, B]⟩ : Shape).Idx → EReal)
    (k : Fin N) (a : Fin A) (b : Fin B) (c : Fin C)
    (hx : x₂ (ix2 k c) = x₃ (ix3 k a b))
    (hv₁ : ∀ m : Fin M₁, u₁ (ix2 m c) = v₁ (ix3 m a b)) (hv₂ : ∀ m : Fin M₂, u₂ (ix2 m c) = v₂ (ix3 m a b)) :
    Ideal.hostScatterAdd d x₂
        (wrapCol hbM hcM n (concatenate ⟨1, ![M]⟩ 0 [⟨⟨1, ![M₁]⟩, t₁⟩, ⟨⟨1, ![M₂]⟩, t₂⟩] hI))
        (concatenate ⟨2, ![M, C]⟩ 0 [⟨⟨2, ![M₁, C]⟩, u₁⟩, ⟨⟨2, ![M₂, C]⟩, u₂⟩] hU) (ix2 k c)
      = Ideal.hostScatterAdd d₂ (Ideal.hostScatterAdd d₁ x₃ (wrapCol hb₁ hc₁ n t₁) v₁) (wrapCol hb₂ hc₂ n t₂) v₂
          (ix3 k a b) :=
  hostScatterAdd_rows2_merge_rows3 hM d hd d₁ hd₁ d₂ hd₂ x₂ x₃ _ _ _ _ v₁ v₂ k a b c hx
    (fun m => congrArg BitVec.toInt (wrapCol_concat_left hbM hcM hb₁ hc₁ hI n t₁ t₂ _ m rfl 0))
    (fun m => congrArg BitVec.toInt (wrapCol_concat_right hbM hcM hb₂ hc₂ hI n t₁ t₂ _ m rfl 0))
    (fun m => (concatenate_rows2_left u₁ u₂ hU _ m c rfl).trans (hv₁ m))
    (fun m => (concatenate_rows2_right u₁ u₂ hU _ m c rfl).trans (hv₂ m))

end Cert.Lib
-- ==== Proof.LibScatterVec.lean ====
/-
  A general lemma about the host's accumulating float scatter at the extended reals, in the pattern of a count or a
  histogram: a one-axis operand `[N]`, a column `[M, 1]` of index words and one update per index `[M]`. Element `n` of
  the result is the operand there plus the sum of the updates whose index word, read signed, is `n`; an index word that
  is negative or at least `N` names no element, and its update is dropped.
-/
import Idealize.ShloMosaic.PureOps.Ideal
import Idealize.ShloMosaic.Lib.ValueIdx
import Idealize.ShloMosaic.Lib.Pipeline.Value
import Mathlib.Algebra.BigOperators.Fin

noncomputable section

namespace Cert.Lib

open Idealize.ShloMosaic Idealize.ShloMosaic.ValueIdx

/-- The dimension numbers of a scatter of one update per index into a one-axis operand: no update window axis, the
    operand's axis inserted, the index vector (of length one, along axis 1 of the index column) naming that axis. At a
    printed record every field is `rfl`. -/
structure VecScatter {N M : Nat} (d : ScatterDims ⟨1, ![N]⟩ ⟨2, ![M, 1]⟩ ⟨1, ![M]⟩) : Prop where
  uw : d.updateWindowDims = []
  iw : d.insertedWindowDims = [0]
  sd : d.scatterDimsToOperandDims = [0]
  iv : d.indexVectorDim = 1

/-- Where an update lands, in the one-axis pattern: update `m` lands on operand element `n` exactly when its index word
    `idx (m, 0)`, read signed, is `n`. There is no window axis, so the landing place is the start index alone; an index
    word that is negative or at least `N` equals no `n : Fin N`, and that update is dropped. -/
theorem resultIdx?_vec {N M w : Nat} (d : ScatterDims ⟨1, ![N]⟩ ⟨2, ![M, 1]⟩ ⟨1, ![M]⟩)
    (hd : VecScatter d) (m : Fin M) (idx : IVec ⟨2, ![M, 1]⟩ w) (n : Fin N) :
    d.resultIdx? (ix1 m) idx = some (ix1 n) ↔ (idx (ix2 m 0)).toInt = (n.val : Int) := by
  obtain ⟨hu, hi, hs, hv⟩ := hd
  obtain ⟨uw, iw, sd, iv, wf⟩ := d
  simp only at hu hi hs hv
  subst hu hi hs hv
  -- the index column is read at row `j 0`, column `0`: the update's only axis is its scatter axis
  have hsi : ∀ (j : (⟨1, ![M]⟩ : Shape).Idx) (k : Fin 1),
      ScatterDims.siIdx (s := ⟨1, ![N]⟩) ⟨[], [0], [0], 1, wf⟩ j k = ix2 (j 0) 0 := by
    intro j k
    funext b
    match b with
    | ⟨0, _⟩ =>
      unfold ScatterDims.siIdx ScatterDims.siCoord
      rw [dif_neg (by simp)]
      apply Fin.ext
      show (j _).val = (j 0).val
      exact congrArg (fun a => (j a).val) (Subsingleton.elim _ _)
    | ⟨1, _⟩ => exact Subsingleton.elim (α := Fin 1) _ _
  -- the start on the operand's axis is that index word, read signed
  have hst : ∀ (j : (⟨1, ![M]⟩ : Shape).Idx) (a : Fin 1),
      ScatterDims.start (s := ⟨1, ![N]⟩) ⟨[], [0], [0], 1, wf⟩ j idx a = (idx (ix2 (j 0) 0)).toInt := by
    intro j a
    obtain rfl : a = 0 := Subsingleton.elim _ _
    unfold ScatterDims.start
    rw [dif_pos (List.mem_singleton.2 rfl)]
    exact congrArg (fun t => (idx t).toInt) (hsi j _)
  -- the operand's axis is inserted: no window coordinate on it
  have hw : ∀ (j : (⟨1, ![M]⟩ : Shape).Idx) (a : Fin 1),
      ScatterDims.window (s := ⟨1, ![N]⟩) (si := ⟨2, ![M, 1]⟩) ⟨[], [0], [0], 1, wf⟩ j a = 0 := by
    intro j a
    have h0 : a ∉ ScatterDims.sKept (s := ⟨1, ![N]⟩) (si := ⟨2, ![M, 1]⟩) (u := ⟨1, ![M]⟩) ⟨[], [0], [0], 1, wf⟩ := by
      show a ∉ ([] : List (Fin 1)); simp
    unfold ScatterDims.window
    rw [dif_neg h0]
  constructor
  · intro h
    unfold ScatterDims.resultIdx? at h
    split at h
    · next hc =>
      have hf := Option.some.inj h
      have e0 := congrArg Fin.val (congrFun hf 0)
      have c0 := hc 0
      simp only [hst, hw] at e0 c0
      change ((idx (ix2 m 0)).toInt + ((0 : Nat) : Int)).toNat = n.val at e0
      change 0 ≤ (idx (ix2 m 0)).toInt + ((0 : Nat) : Int) ∧ _ at c0
      omega
    · exact absurd h (by simp)
  · intro hT
    have hcond : ∀ a : Fin 1, 0 ≤ ScatterDims.start (s := ⟨1, ![N]⟩) ⟨[], [0], [0], 1, wf⟩ (ix1 m) idx a
          + (ScatterDims.window (s := ⟨1, ![N]⟩) (si := ⟨2, ![M, 1]⟩) ⟨[], [0], [0], 1, wf⟩ (ix1 m) a : Int) ∧
        ScatterDims.start (s := ⟨1, ![N]⟩) ⟨[], [0], [0], 1, wf⟩ (ix1 m) idx a
          + (ScatterDims.window (s := ⟨1, ![N]⟩) (si := ⟨2, ![M, 1]⟩) ⟨[], [0], [0], 1, wf⟩ (ix1 m) a : Int)
          < ((⟨1, ![N]⟩ : Shape).size a : Int) := by
      intro a
      obtain rfl : a = 0 := Subsingleton.elim _ _
      rw [hst, hw]
      change 0 ≤ (idx (ix2 m 0)).toInt + ((0 : Nat) : Int) ∧ (idx (ix2 m 0)).toInt + ((0 : Nat) : Int) < (N : Int)
      have := n.isLt
      omega
    unfold ScatterDims.resultIdx?
    rw [dif_pos hcond]
    congr 1
    funext a
    apply Fin.ext
    match a with
    | ⟨0, _⟩ =>
      show (ScatterDims.start (s := ⟨1, ![N]⟩) ⟨[], [0], [0], 1, wf⟩ (ix1 m) idx 0
          + (ScatterDims.window (s := ⟨1, ![N]⟩) (si := ⟨2, ![M, 1]⟩) ⟨[], [0], [0], 1, wf⟩ (ix1 m) 0 : Int)).toNat = n.val
      rw [hst, hw]
      change ((idx (ix2 m 0)).toInt + ((0 : Nat) : Int)).toNat = n.val
      omega

/-- THE ELEMENT FORM on the extended reals: the accumulating scatter at operand element `n` is the operand there plus the
    sum of `upd m` over the updates `m` whose index word `idx (m, 0)`, read signed, is `n`. The updates that land on
    `n` are in bijection with those positions `m`. -/
theorem hostScatterAdd_vec {N M w : Nat} (d : ScatterDims ⟨1, ![N]⟩ ⟨2, ![M, 1]⟩ ⟨1, ![M]⟩)
    (hd : VecScatter d) (x : (⟨1, ![N]⟩ : Shape).Idx → EReal) (idx : IVec ⟨2, ![M, 1]⟩ w)
    (upd : (⟨1, ![M]⟩ : Shape).Idx → EReal) (n : Fin N) :
    Ideal.hostScatterAdd d x idx upd (ix1 n)
      = x (ix1 n) + ∑ m ∈ Finset.univ.filter (fun m : Fin M => (idx (ix2 m 0)).toInt = (n.val : Int)), upd (ix1 m) := by
  unfold Ideal.hostScatterAdd
  congr 1
  symm
  refine Finset.sum_bij (fun m _ => ix1 m) ?_ ?_ ?_ ?_
  · intro m hm
    simp only [Finset.mem_filter, Finset.mem_univ, true_and] at hm ⊢
    exact (resultIdx?_vec d hd m idx n).2 hm
  · intro m₁ _ m₂ _ h
    exact congrFun h 0
  · intro j hj
    obtain ⟨a, rfl⟩ : ∃ a, j = ix1 a := ⟨j 0, eq_ix1 j⟩
    simp only [Finset.mem_filter, Finset.mem_univ, true_and] at hj
    have hT := (resultIdx?_vec d hd a idx n).1 hj
    exact ⟨a, by simp only [Finset.mem_filter, Finset.mem_univ, true_and]; exact hT, rfl⟩
  · intro m _; rfl

/-- THE ELEMENT FORM: the accumulating scatter at operand element `n` is the operand there plus the sum of `upd m` over
    the updates `m` whose index word `idx (m, 0)`, read signed, is `n`. -/
theorem scatterAdd_vec {N M w : Nat} {φ : FTy} (d : ScatterDims ⟨1, ![N]⟩ ⟨2, ![M, 1]⟩ ⟨1, ![M]⟩)
    (hd : VecScatter d) (x : FVec Ideal ⟨1, ![N]⟩ φ) (idx : IVec ⟨2, ![M, 1]⟩ w)
    (upd : FVec Ideal ⟨1, ![M]⟩ φ) (n : Fin N) :
    Host.scatterAdd d x idx upd (ix1 n)
      = x (ix1 n) + ∑ m ∈ Finset.univ.filter (fun m : Fin M => (idx (ix2 m 0)).toInt = (n.val : Int)), upd (ix1 m) :=
  hostScatterAdd_vec d hd x idx upd n

end Cert.Lib

end
-- ==== Proof.RefValue.lean ====
/-
  The reference program's result is the weighted neighbour aggregation of the specification.

  The reference gathers, for every edge, the feature row of its source, scales it by the edge's weight, adds the scaled
  rows into the rows of their targets and the weights into the targets' counts, and blends every node's own row with
  the received average. Each of those steps is read here at one element: the gather at edge e and column d is the
  feature table at the edge's source row, the two accumulating scatters at node r are sums over the edges whose target
  word is r, and the elementwise tail is the blend.
-/
import proofs.«427598_j71588514890457_2_alg».proof.Proof.Gen.ReferenceIdeal.Read
import proofs.«427598_j71588514890457_2_alg».proof.Proof.Spec
import proofs.«427598_j71588514890457_2_alg».proof.Proof.LibRowGather
import proofs.«427598_j71588514890457_2_alg».proof.Proof.LibScatterRows
import proofs.«427598_j71588514890457_2_alg».proof.Proof.LibScatterVec
import Idealize.ShloMosaic.PureOps.Ideal.Laws
import Idealize.ShloMosaic.Lib.StableHlo.Predicate

open scoped BigOperators

noncomputable section

namespace Cert.RefValue

open Idealize.ShloMosaic Idealize.ShloMosaic.ValueIdx Cert.ReferenceIdeal

/-- The features, the weights and the edges, as the reference's arguments. -/
abbrev TF := (⟨S10000x128, .f32⟩ : BufTy).Contents (Elt Ideal)
abbrev TW := (⟨S640000, .f32⟩ : BufTy).Contents (Elt Ideal)
abbrev TE := (⟨S640000x2, .i32⟩ : BufTy).Contents (Elt Ideal)

/-! ## The two edge columns -/

/-- The source column, reshaped to a vector, at edge e: the edge's word in column 0. -/
theorem v1_at (x2 : TE) (e : Fin 640000) : Read.val_main_v1 (F := Ideal) x2 (ix1 e) = x2 (ix2 e 0) := by
  rw [Read.val_main_v1_apply, Read.val_main_v0_apply]
  congr 1
  funext a
  match a with
  | ⟨0, _⟩ => exact Fin.ext (Nat.div_one _)
  | ⟨1, _⟩ => rfl

/-- The target column, reshaped to a vector, at edge e: the edge's word in column 1. -/
theorem v3_at (x2 : TE) (e : Fin 640000) : Read.val_main_v3 (F := Ideal) x2 (ix1 e) = x2 (ix2 e 1) := by
  rw [Read.val_main_v3_apply, Read.val_main_v2_apply]
  congr 1
  funext a
  match a with
  | ⟨0, _⟩ => exact Fin.ext (Nat.div_one _)
  | ⟨1, _⟩ => rfl

/-! ## The source row -/

/-- A word that reads as a nonnegative integer is not below zero in the signed order. -/
theorem slt_zero_of_nonneg (v : BitVec 32) (h : 0 ≤ v.toInt) : IntOp.cmpi .slt v 0#32 = 0#1 := by
  have hn : ¬ v.toInt < (0#32 : BitVec 32).toInt := by
    rw [show (0#32 : BitVec 32).toInt = 0 from rfl]; omega
  show BitVec.ofBool (v.slt 0#32) = 0#1
  rw [BitVec.slt_eq_decide, decide_eq_false hn]
  rfl

/-- The wrapped source index at edge e: under a nonnegative source word the wrap keeps the word. -/
theorem v8_at (x2 : TE) (e : Fin 640000) (h : 0 ≤ (x2 (ix2 e 0)).toInt) :
    Read.val_main_v8 (F := Ideal) x2 (ix1 e) = x2 (ix2 e 0) := by
  rw [Read.val_main_v8_apply, Read.val_main_v5_apply, Read.val_main_v4_apply, Read.val_main_c_apply, v1_at,
    slt_zero_of_nonneg _ h, select_zero]

/-- The column of wrapped source indices at row e. -/
theorem v9_at (x2 : TE) (e : Fin 640000) (h : 0 ≤ (x2 (ix2 e 0)).toInt) :
    Read.val_main_v9 (F := Ideal) x2 (StableHlo.Predicate.ixP e) = x2 (ix2 e 0) := by
  rw [Read.val_main_v9_apply, ← v8_at x2 e h]
  congr 1
  funext a
  match a with
  | ⟨0, _⟩ => rfl

/-- The two spellings of a rank-2 index from its coordinates agree. -/
theorem ij_eq_ix2 {n m : Nat} (p : Fin n) (q : Fin m) : StableHlo.Predicate.ij p q = ix2 p q := by
  funext a
  match a with
  | ⟨0, _⟩ => rfl
  | ⟨1, _⟩ => rfl

/-- The gathered rows at edge e, column d: the feature table at the edge's source row (its source word read signed and
    kept inside the table) and column d. -/
theorem v10_at (x0 : TF) (x2 : TE) (e : Fin 640000) (d : Fin 128) (h : 0 ≤ (x2 (ix2 e 0)).toInt) :
    Read.val_main_v10 (F := Ideal) x0 x2 (ix2 e d)
      = x0 (ix2 (⟨min (x2 (ix2 e 0)).toInt.toNat 9999, by omega⟩ : Fin 10000) d) := by
  unfold Read.val_main_v10
  rw [← ij_eq_ix2 e d,
    Cert.LibRowGather.gather_rows (N := 10000) (M := 128) (n := 640000) _ rfl rfl rfl rfl rfl x0 _ e d (by omega),
    ij_eq_ix2]
  congr 1
  congr 1
  apply Fin.ext
  show min (Read.val_main_v9 (F := Ideal) x2 (StableHlo.Predicate.ixP e)).toInt.toNat (10000 - 1) = _
  rw [v9_at x2 e h]

/-! ## The messages and the two sums -/

/-- The weights broadcast along the feature axis, at edge e and any column: the edge's weight. -/
theorem v12_at (x1 : TW) (e : Fin 640000) (d : Fin 128) : Read.val_main_v12 (F := Ideal) x1 (ix2 e d) = x1 (ix1 e) := by
  rw [Read.val_main_v12_apply, Read.val_main_v11_apply]
  congr 1
  funext a
  match a with
  | ⟨0, _⟩ => rfl

/-- The scaled gathered rows at edge e, column d: the edge's message. -/
theorem v13_at (x0 : TF) (x1 : TW) (x2 : TE) (e : Fin 640000) (d : Fin 128) (h : 0 ≤ (x2 (ix2 e 0)).toInt) :
    Read.val_main_v13 (F := Ideal) x0 x1 x2 (ix2 e d) = Cert.Agg.msg x0 x1 x2 e d := by
  rw [Read.val_main_v13_apply, v10_at x0 x2 e d h, v12_at]
  rfl

/-- The column of target indices at row e: the edge's word in column 1. The program forms this column twice, once for
    each of the two sums. -/
theorem v15_at (x2 : TE) (e : Fin 640000) : Read.val_main_v15 (F := Ideal) x2 (ix2 e 0) = x2 (ix2 e 1) := by
  rw [Read.val_main_v15_apply, ← v3_at x2 e]
  congr 1
  funext a
  match a with
  | ⟨0, _⟩ => rfl

theorem v18_at (x2 : TE) (e : Fin 640000) : Read.val_main_v18 (F := Ideal) x2 (ix2 e 0) = x2 (ix2 e 1) := by
  rw [Read.val_main_v18_apply, ← v3_at x2 e]
  congr 1
  funext a
  match a with
  | ⟨0, _⟩ => rfl

/-- The rows scattered into a zero table, at node r and column d: the sum of the messages of the edges into r. -/
theorem v16_at (x0 : TF) (x1 : TW) (x2 : TE) (r : Fin 10000) (d : Fin 128)
    (hsrc : ∀ e : Fin 640000, 0 ≤ (x2 (ix2 e 0)).toInt) :
    Read.val_main_v16 (F := Ideal) x0 x1 x2 (ix2 r d) = Cert.Agg.enh x0 x1 x2 r d := by
  unfold Read.val_main_v16
  rw [Cert.Lib.scatterAdd_rows2 (N := 10000) (M := 640000) (C := 128) (φ := .f32) _ ⟨rfl, rfl, rfl, rfl⟩,
    Read.val_main_v14_apply, Read.val_main_cst_apply, Ideal.ofBits_def, Ideal.ofBits_zero_f32, zero_add]
  unfold Cert.Agg.enh Cert.Agg.into
  simp only [v15_at]
  exact Finset.sum_congr rfl fun e _ => v13_at x0 x1 x2 e d (hsrc e)

/-- The weights scattered into a zero vector, at node r: the sum of the weights of the edges into r. -/
theorem v19_at (x1 : TW) (x2 : TE) (r : Fin 10000) :
    Read.val_main_v19 (F := Ideal) x1 x2 (ix1 r) = Cert.Agg.cnt x1 x2 r := by
  unfold Read.val_main_v19
  rw [Cert.Lib.scatterAdd_vec (N := 10000) (M := 640000) (φ := .f32) _ ⟨rfl, rfl, rfl, rfl⟩,
    Read.val_main_v17_apply, Read.val_main_cst_1_apply, Ideal.ofBits_def, Ideal.ofBits_zero_f32, zero_add]
  unfold Cert.Agg.cnt Cert.Agg.into
  simp only [v18_at]

/-! ## The elementwise tail -/

/-- The received weight kept at least eps, at node r. -/
theorem v21_at (x1 : TW) (x2 : TE) (r : Fin 10000) :
    Read.val_main_v21 (F := Ideal) x1 x2 (ix1 r) = max (Cert.Agg.cnt x1 x2 r) Cert.Agg.eps := by
  rw [Read.val_main_v21_apply, v19_at, Read.val_main_v20_apply, Read.val_main_cst_2_apply]
  rfl

/-- The mask "received more than eps" as a number, at node r: the gate of the received weight. -/
theorem v27_at (x1 : TW) (x2 : TE) (r : Fin 10000) :
    Read.val_main_v27 (F := Ideal) x1 x2 (ix1 r) = Cert.Agg.gate (Cert.Agg.cnt x1 x2 r) := by
  rw [Read.val_main_v27_apply, Read.val_main_v26_apply, v21_at, Read.val_main_v25_apply, Read.val_main_cst_3_apply]
  exact Cert.Agg.gate_unsigned_max _

/-- The same gate as a column, at row r. -/
theorem v28_at (x1 : TW) (x2 : TE) (r : Fin 10000) :
    Read.val_main_v28 (F := Ideal) x1 x2 (ix2 r 0) = Cert.Agg.gate (Cert.Agg.cnt x1 x2 r) := by
  rw [Read.val_main_v28_apply, ← v27_at x1 x2 r]
  congr 1
  funext a
  match a with
  | ⟨0, _⟩ => rfl

/-- A column [10000, 1] broadcast along the feature axis reads, at node r and any column, the column's row r. The
    three broadcasts of this kind read through the same index function. -/
theorem col_idx (r : Fin 10000) (d : Fin 128) : Read.idx_main_v33 (ix2 r d) = ix2 r 0 := by
  funext a
  match a with
  | ⟨0, _⟩ => rfl
  | ⟨1, _⟩ => rfl

/-- The share a node keeps of its own row, at node r and any column. -/
theorem v33_at (x1 : TW) (x2 : TE) (r : Fin 10000) (d : Fin 128) :
    Read.val_main_v33 (F := Ideal) x1 x2 (ix2 r d)
      = Cert.Agg.one - Cert.Agg.agg * Cert.Agg.gate (Cert.Agg.cnt x1 x2 r) := by
  rw [Read.val_main_v33_apply, show Read.idx_main_v33 (ix2 r d) = ix2 r 0 from col_idx r d,
    Read.val_main_v32_apply, Read.val_main_v31_apply, Read.val_main_cst_5_apply, Read.val_main_v30_apply,
    Read.val_main_v29_apply, Read.val_main_cst_4_apply, v28_at]
  rfl

/-- The share that goes to the received average, at node r and any column. -/
theorem v37_at (x1 : TW) (x2 : TE) (r : Fin 10000) (d : Fin 128) :
    Read.val_main_v37 (F := Ideal) x1 x2 (ix2 r d) = Cert.Agg.agg * Cert.Agg.gate (Cert.Agg.cnt x1 x2 r) := by
  rw [Read.val_main_v37_apply, show Read.idx_main_v37 (ix2 r d) = ix2 r 0 from col_idx r d,
    Read.val_main_v36_apply, Read.val_main_v35_apply, Read.val_main_cst_6_apply, v28_at]
  rfl

/-- The divisor, at node r and any column: the received weight kept at least eps. -/
theorem v23_at (x1 : TW) (x2 : TE) (r : Fin 10000) (d : Fin 128) :
    Read.val_main_v23 (F := Ideal) x1 x2 (ix2 r d) = max (Cert.Agg.cnt x1 x2 r) Cert.Agg.eps := by
  rw [Read.val_main_v23_apply, show Read.idx_main_v23 (ix2 r d) = ix2 r 0 from col_idx r d,
    Read.val_main_v22_apply, ← v21_at x1 x2 r]
  congr 1
  funext a
  match a with
  | ⟨0, _⟩ => rfl

/-! ## The reference's result -/

/-- The reference's result is the specification's array: at every node and column it is the blend of the node's own
    entry with the received sum over the received weight. -/
theorem ref_eq (x0 : (⟨S10000x128, .f32⟩ : BufTy).Contents (Elt Ideal)) (x1 : (⟨S640000, .f32⟩ : BufTy).Contents (Elt Ideal)) (x2 : (⟨S640000x2, .i32⟩ : BufTy).Contents (Elt Ideal))
    (hsrc : ∀ e : Fin 640000, 0 ≤ (x2 (ix2 e 0)).toInt ∧ (x2 (ix2 e 0)).toInt < 10000) :
    Cert.ReferenceIdeal.Read.val_main_v39 (F := Ideal) x0 x1 x2 = Cert.Agg.G x0 x1 x2 := by
  refine Cert.Agg.eq_G x0 x1 x2 _ fun r d => ?_
  rw [Read.val_main_v39_apply, Read.val_main_v34_apply, v33_at, Read.val_main_v38_apply, Read.val_main_v24_apply,
    v16_at x0 x1 x2 r d (fun e => (hsrc e).1), v23_at, v37_at]
  rfl

end Cert.RefValue

end
-- ==== Proof.Pieces.lean ====
/-
  What one run of the kernel body leaves behind, as values. The body is run once per kind of grid point: the first
  point (which clears both running sums before adding to them), a middle point, and the last point (which also
  writes the result). Each store covers its whole buffer, so what a buffer holds afterwards is the payload of the last
  store into it, and a load that follows a store in the same run reads that store's payload.

  With `x0, x1, x2` the point's blocks of source words, target words and weights, `x3` the feature table and
  `xs0, xs1` what the two running sums held before the point:
    the received-sum buffer ends at   `k0_pay6 x3 x0 x1 x2 xs0`            (at the first point `xs0` is the zero block),
    the received-weight buffer at      `k0_pay1 (k0_pay7 x1 x2 xs1)`        (at the first point `xs1` is the zero column),
    and at the last point the result block is `k0_pay2` of the table and the two buffers' new contents.
-/
import proofs.«427598_j71588514890457_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces
open Cert.KernelIdeal Cert.KernelIdeal.Gen

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

section
variable (c : Dev nD) (i : grid0.Coords)
  (a1 : Memref sig .tc .vmem S128 .i32) (h1 : a1.IsWhole) (a2 : Memref sig .tc .vmem S128 .i32) (h2 : a2.IsWhole)
  (a3 : Memref sig .tc .vmem S128 .f32) (h3 : a3.IsWhole) (a4 : Memref sig .tc .vmem S10000x128 .f32) (h4 : a4.IsWhole)
  (a5 : Memref sig .tc .vmem S10000x128 .f32) (h5 : a5.IsWhole) (a6 : Memref sig .tc .vmem S10000x128 .f32) (h6 : a6.IsWhole)
  (a7 : Memref sig .tc .vmem S10000x1 .f32) (h7 : a7.IsWhole)
  (x0 : Vec F S128 .i32) (x1 : Vec F S128 .i32) (x2 : Vec F S128 .f32) (x3 : Vec F S10000x128 .f32)

/-! ## A middle point -/

theorem sum_B (hc0 : ¬cond0_0 i) (hc1 : ¬cond0_1 i) (xs0 : Vec F S10000x128 .f32) (xs1 : Vec F S10000x1 .f32) :
    sout0_B_0 c i a1 h1 a2 h2 a3 h3 a4 h4 a5 h5 a6 h6 a7 h7 hc0 hc1 x0 x1 x2 x3 xs0 xs1 = k0_pay6 x3 x0 x1 x2 xs0 := by
  unfold sout0_B_0
  rw [View.read_writes_eq_canon _ _ _ (scover0_B_0 c i a1 h1 a2 h2 a3 h3 a4 h4 a5 h5 a6 h6 a7 h7 hc0 hc1 x0 x1 x2 x3 xs0 xs1)]
  unfold kernelRun0_B
  dsimp only
  sl_unfold_words
  rw [View.canon_unit_zero hz]
  simp only [View.readAt_eq_ld, h1.read_unread, h2.read_unread, h3.read_unread, h4.read_unread, h6.read_unread, h7.read_unread,
    View.ld_unit_zero (S := S10000x128) hz, View.ld_unit_zero (S := S10000x1) hz, View.ld_unit_zero (S := S128) hz1]

theorem weight_B (hc0 : ¬cond0_0 i) (hc1 : ¬cond0_1 i) (xs0 : Vec F S10000x128 .f32) (xs1 : Vec F S10000x1 .f32) :
    sout0_B_1 c i a1 h1 a2 h2 a3 h3 a4 h4 a5 h5 a6 h6 a7 h7 hc0 hc1 x0 x1 x2 x3 xs0 xs1 = k0_pay1 (k0_pay7 x1 x2 xs1) := by
  unfold sout0_B_1
  rw [View.read_writes_eq_canon _ _ _ (scover0_B_1 c i a1 h1 a2 h2 a3 h3 a4 h4 a5 h5 a6 h6 a7 h7 hc0 hc1 x0 x1 x2 x3 xs0 xs1)]
  unfold kernelRun0_B
  dsimp only
  sl_unfold_words
  rw [View.canon_unit_zero hz]
  simp only [View.readAt_eq_ld, h1.read_unread, h2.read_unread, h3.read_unread, h4.read_unread, h6.read_unread, h7.read_unread,
    View.ld_unit_zero (S := S10000x128) hz, View.ld_unit_zero (S := S10000x1) hz, View.ld_unit_zero (S := S128) hz1]

/-! ## The last point -/

theorem sum_C (hc0 : ¬cond0_0 i) (hc1 : cond0_1 i) (xs0 : Vec F S10000x128 .f32) (xs1 : Vec F S10000x1 .f32) :
    sout0_C_0 c i a1 h1 a2 h2 a3 h3 a4 h4 a5 h5 a6 h6 a7 h7 hc0 hc1 x0 x1 x2 x3 xs0 xs1 = k0_pay6 x3 x0 x1 x2 xs0 := by
  unfold sout0_C_0
  rw [View.read_writes_eq_canon _ _ _ (scover0_C_0 c i a1 h1 a2 h2 a3 h3 a4 h4 a5 h5 a6 h6 a7 h7 hc0 hc1 x0 x1 x2 x3 xs0 xs1)]
  unfold kernelRun0_C
  dsimp only
  sl_unfold_words
  rw [View.canon_unit_zero hz]
  simp only [View.readAt_eq_ld, h1.read_unread, h2.read_unread, h3.read_unread, h4.read_unread, h6.read_unread, h7.read_unread,
    View.ld_unit_zero (S := S10000x128) hz, View.ld_unit_zero (S := S10000x1) hz, View.ld_unit_zero (S := S128) hz1]

theorem weight_C (hc0 : ¬cond0_0 i) (hc1 : cond0_1 i) (xs0 : Vec F S10000x128 .f32) (xs1 : Vec F S10000x1 .f32) :
    sout0_C_1 c i a1 h1 a2 h2 a3 h3 a4 h4 a5 h5 a6 h6 a7 h7 hc0 hc1 x0 x1 x2 x3 xs0 xs1 = k0_pay1 (k0_pay7 x1 x2 xs1) := by
  unfold sout0_C_1
  rw [View.read_writes_eq_canon _ _ _ (scover0_C_1 c i a1 h1 a2 h2 a3 h3 a4 h4 a5 h5 a6 h6 a7 h7 hc0 hc1 x0 x1 x2 x3 xs0 xs1)]
  unfold kernelRun0_C
  dsimp only
  sl_unfold_words
  rw [View.canon_unit_zero hz]
  simp only [View.readAt_eq_ld, h1.read_unread, h2.read_unread, h3.read_unread, h4.read_unread, h6.read_unread, h7.read_unread,
    View.ld_unit_zero (S := S10000x128) hz, View.ld_unit_zero (S := S10000x1) hz, View.ld_unit_zero (S := S128) hz1]

theorem result_C (hc0 : ¬cond0_0 i) (hc1 : cond0_1 i) (xs0 : Vec F S10000x128 .f32) (xs1 : Vec F S10000x1 .f32) :
    out0_C_4 c i a1 h1 a2 h2 a3 h3 a4 h4 a5 h5 a6 h6 a7 h7 hc0 hc1 x0 x1 x2 x3 xs0 xs1
      = k0_pay2 x3 (k0_pay1 (k0_pay7 x1 x2 xs1)) (k0_pay1 (k0_pay7 x1 x2 xs1)) (k0_pay6 x3 x0 x1 x2 xs0) := by
  unfold out0_C_4
  rw [View.read_writes_eq_canon _ _ _ (cover0_C_4 c i a1 h1 a2 h2 a3 h3 a4 h4 a5 h5 a6 h6 a7 h7 hc0 hc1 x0 x1 x2 x3 xs0 xs1)]
  unfold kernelRun0_C
  dsimp only
  sl_unfold_words
  rw [View.canon_unit_zero hz]
  simp only [View.readAt_eq_ld, h1.read_unread, h2.read_unread, h3.read_unread, h4.read_unread, h6.read_unread, h7.read_unread,
    View.ld_unit_zero (S := S10000x128) hz, View.ld_unit_zero (S := S10000x1) hz, View.ld_unit_zero (S := S128) hz1,
    View.readCov_unit_zero (S := S10000x128) _ hz, View.readCov_unit_zero (S := S10000x1) _ hz]

/-! ## The first point -/

theorem sum_A (hc0 : cond0_0 i) (hc1 : ¬cond0_1 i) :
    sout0_A_0 c i a1 h1 a2 h2 a3 h3 a4 h4 a5 h5 a6 h6 a7 h7 hc0 hc1 x0 x1 x2 x3 = k0_pay6 x3 x0 x1 x2 (k0_pay3 (F := F)) := by
  unfold sout0_A_0
  rw [View.read_writes_eq_canon _ _ _ (scover0_A_0 c i a1 h1 a2 h2 a3 h3 a4 h4 a5 h5 a6 h6 a7 h7 hc0 hc1 x0 x1 x2 x3)]
  unfold kernelRun0_A
  dsimp only
  sl_unfold_words
  rw [View.canon_cons_unit_zero (S := S10000x128) hz]
  simp only [View.readAt_eq_ld, h1.read_unread, h2.read_unread, h3.read_unread, h4.read_unread, h6.read_unread, h7.read_unread,
    View.ld_unit_zero (S := S10000x128) hz, View.ld_unit_zero (S := S10000x1) hz, View.ld_unit_zero (S := S128) hz1,
    View.readCov_unit_zero (S := S10000x128) _ hz]

theorem weight_A (hc0 : cond0_0 i) (hc1 : ¬cond0_1 i) :
    sout0_A_1 c i a1 h1 a2 h2 a3 h3 a4 h4 a5 h5 a6 h6 a7 h7 hc0 hc1 x0 x1 x2 x3 = k0_pay1 (k0_pay7 x1 x2 (k0_pay4 (F := F))) := by
  unfold sout0_A_1
  rw [View.read_writes_eq_canon _ _ _ (scover0_A_1 c i a1 h1 a2 h2 a3 h3 a4 h4 a5 h5 a6 h6 a7 h7 hc0 hc1 x0 x1 x2 x3)]
  unfold kernelRun0_A
  dsimp only
  sl_unfold_words
  rw [View.canon_cons_unit_zero (S := S10000x1) hz]
  simp only [View.readAt_eq_ld, h1.read_unread, h2.read_unread, h3.read_unread, h4.read_unread, h6.read_unread, h7.read_unread,
    View.ld_unit_zero (S := S10000x128) hz, View.ld_unit_zero (S := S10000x1) hz, View.ld_unit_zero (S := S128) hz1,
    View.readCov_unit_zero (S := S10000x1) _ hz]

end

end Cert.KernelIdeal.Pieces

end
-- ==== Proof.LibMaskSum.lean ====
/-
  A 0/1-masked contraction over the extended reals is a sum over the mask's support.

  On the extended reals `x * 0 = 0` and `x * 1 = x` for EVERY `x`, the infinities included (the extended reals are a
  commutative monoid with zero), so a mask factor `if g i = k then 1 else 0` inside a sum keeps exactly the terms with
  `g i = k`, with no finiteness side condition. When the index set is `H` consecutive blocks of `B` and `g` is
  "which block" (`c / B`), the support of block `k` is the `B` positions `B * k + b`, and the sum over it is a sum
  over `Fin B`. The one-hot expansion `∑ h, t h * [q = h] = t q` is the same fact read the other way.
-/
import Mathlib.Data.EReal.Inv
import Mathlib.Algebra.BigOperators.Group.Finset.Basic
import Mathlib.Algebra.BigOperators.Group.Finset.Piecewise

open scoped BigOperators

namespace Cert.Lib

/-- A 0/1 mask factor on the extended reals: `(if c then 1 else 0) * a` is `a` where the condition holds and `0`
    where it does not, for every `a` (infinite ones too). -/
theorem mask_mul (c : Prop) [Decidable c] (a : EReal) : (if c then (1 : EReal) else 0) * a = if c then a else 0 := by
  split_ifs <;> simp

/-- The same with the mask on the right. -/
theorem mul_mask (c : Prop) [Decidable c] (a : EReal) : a * (if c then (1 : EReal) else 0) = if c then a else 0 := by
  split_ifs <;> simp

/-- A masked term of a contraction: `p * ((if c then 1 else 0) * a)` is `p * a` where the condition holds and `0`
    where it does not, for every `p`, `a` on the extended reals. -/
theorem mul_mask_mul (c : Prop) [Decidable c] (p a : EReal) :
    p * ((if c then (1 : EReal) else 0) * a) = if c then p * a else 0 := by
  split_ifs <;> simp

/-- A 0/1-masked contraction is the sum over the mask's support: for finite `ι`, any `g : ι → κ`, `k : κ` and any
    `p a : ι → EReal`, `∑ i, p i * ((if g i = k then 1 else 0) * a i) = ∑ i ∈ univ.filter (g · = k), p i * a i`. -/
theorem sum_mul_mask_mul {ι κ : Type*} [Fintype ι] [DecidableEq κ] (g : ι → κ) (k : κ) (p a : ι → EReal) :
    ∑ i, p i * ((if g i = k then (1 : EReal) else 0) * a i)
      = ∑ i ∈ Finset.univ.filter (fun i => g i = k), p i * a i := by
  rw [Finset.sum_filter]
  exact Finset.sum_congr rfl fun i _ => mul_mask_mul _ _ _

/-- The same for a mask stated by any decidable predicate `q` on the index. -/
theorem sum_mul_maskP_mul {ι : Type*} [Fintype ι] (q : ι → Prop) [DecidablePred q] (p a : ι → EReal) :
    ∑ i, p i * ((if q i then (1 : EReal) else 0) * a i) = ∑ i ∈ Finset.univ.filter q, p i * a i := by
  rw [Finset.sum_filter]
  exact Finset.sum_congr rfl fun i _ => mul_mask_mul _ _ _

/-- A masked sum with the mask as the only other factor: `∑ i, (if q i then 1 else 0) * a i` is the sum of `a` over
    the indices where `q` holds. -/
theorem sum_maskP_mul {ι : Type*} [Fintype ι] (q : ι → Prop) [DecidablePred q] (a : ι → EReal) :
    ∑ i, (if q i then (1 : EReal) else 0) * a i = ∑ i ∈ Finset.univ.filter q, a i := by
  rw [Finset.sum_filter]
  exact Finset.sum_congr rfl fun i _ => mask_mul _ _

/-- Position `B * k + b` of block `k < H` at offset `b < B` lies below `H * B`. -/
theorem block_pos_lt {n H B : Nat} (hn : n = H * B) (k : Fin H) (b : Fin B) : B * k.val + b.val < n := by
  subst hn
  calc B * k.val + b.val < B * k.val + B := Nat.add_lt_add_left b.isLt _
    _ = B * (k.val + 1) := (Nat.mul_succ _ _).symm
    _ ≤ B * H := Nat.mul_le_mul_left B k.isLt
    _ = H * B := Nat.mul_comm _ _

/-- The sum over block `k` of an index set of `H` consecutive blocks of `B`: the indices `c : Fin n`
    (`n = H * B`) with `c / B = k` are the `B` positions `B * k + b`, so the filtered sum is a sum over `Fin B`.
    For any additive commutative monoid. -/
theorem sum_filter_block {α : Type*} [AddCommMonoid α] {n H B : Nat} (hn : n = H * B) (k : Fin H) (f : Fin n → α) :
    ∑ c ∈ Finset.univ.filter (fun c : Fin n => c.val / B = k.val), f c
      = ∑ b : Fin B, f ⟨B * k.val + b.val, block_pos_lt hn k b⟩ := by
  symm
  refine Finset.sum_bij (fun b _ => (⟨B * k.val + b.val, block_pos_lt hn k b⟩ : Fin n)) ?_ ?_ ?_ ?_
  · intro b _
    have hB : 0 < B := Nat.lt_of_le_of_lt (Nat.zero_le _) b.isLt
    simp only [Finset.mem_filter, Finset.mem_univ, true_and]
    rw [Nat.mul_add_div hB, Nat.div_eq_of_lt b.isLt, Nat.add_zero]
  · intro b₁ _ b₂ _ h
    have := congrArg Fin.val h
    simp only at this
    exact Fin.ext (by omega)
  · intro c hc
    simp only [Finset.mem_filter, Finset.mem_univ, true_and] at hc
    have hB : 0 < B := Nat.pos_of_ne_zero (by
      rintro rfl
      have h1 : c.val < H * 0 := lt_of_lt_of_eq c.isLt hn
      exact absurd h1 (by simp))
    refine ⟨⟨c.val % B, Nat.mod_lt _ hB⟩, Finset.mem_univ _, ?_⟩
    apply Fin.ext
    show B * k.val + c.val % B = c.val
    rw [← hc]; exact Nat.div_add_mod _ _
  · intro b _; rfl

/-- The block form of the masked contraction: over `Fin n` with `n = H * B` and the mask "`c` lies in block `k`"
    (`c / B = k`), `∑ c, p c * ((if c / B = k then 1 else 0) * a c) = ∑ b : Fin B, p (B·k + b) * a (B·k + b)`. -/
theorem sum_mul_blockmask_mul {n H B : Nat} (hn : n = H * B) (k : Fin H) (p a : Fin n → EReal) :
    ∑ c : Fin n, p c * ((if c.val / B = k.val then (1 : EReal) else 0) * a c)
      = ∑ b : Fin B, p ⟨B * k.val + b.val, block_pos_lt hn k b⟩ * a ⟨B * k.val + b.val, block_pos_lt hn k b⟩ := by
  rw [sum_mul_maskP_mul (fun c : Fin n => c.val / B = k.val) p a]
  exact sum_filter_block hn k fun c => p c * a c

/-- The one-hot expansion: `∑ h : Fin H, t h * (if j = h then 1 else 0) = t j` on the extended reals. -/
theorem sum_mul_onehot {H : Nat} (t : Fin H → EReal) (j : Fin H) :
    ∑ h : Fin H, t h * (if j = h then (1 : EReal) else 0) = t j := by
  simp only [mul_mask]
  rw [Finset.sum_ite_eq Finset.univ j t, if_pos (Finset.mem_univ _)]

/-- The one-hot expansion with the selected position a natural number `q < H` compared with the summation index's
    value: `∑ h : Fin H, t h * (if q = h then 1 else 0) = t q`. With `q = c / B` for `c < H * B` this is the block
    number of `c`. -/
theorem sum_mul_onehot_val {H : Nat} (t : Fin H → EReal) (q : Nat) (hq : q < H) :
    ∑ h : Fin H, t h * (if q = h.val then (1 : EReal) else 0) = t ⟨q, hq⟩ := by
  rw [← sum_mul_onehot t ⟨q, hq⟩]
  refine Finset.sum_congr rfl fun h _ => ?_
  have : (q = h.val) ↔ ((⟨q, hq⟩ : Fin H) = h) := ⟨fun e => Fin.ext e, fun e => congrArg Fin.val e⟩
  simp only [this]

/-- The block number of a position below `H * B` is below `H`. -/
theorem block_lt {n H B : Nat} (hn : n = H * B) (c : Fin n) : c.val / B < H := by
  have hc : c.val < H * B := lt_of_lt_of_eq c.isLt hn
  exact Nat.div_lt_of_lt_mul (lt_of_lt_of_eq hc (Nat.mul_comm H B))

/-- The one-hot expansion at a block number: for `c : Fin n`, `n = H * B`,
    `∑ h : Fin H, t h * (if c / B = h then 1 else 0) = t (c / B)`. -/
theorem sum_mul_onehot_block {n H B : Nat} (hn : n = H * B) (t : Fin H → EReal) (c : Fin n) :
    ∑ h : Fin H, t h * (if c.val / B = h.val then (1 : EReal) else 0) = t ⟨c.val / B, block_lt hn c⟩ :=
  sum_mul_onehot_val t _ _

end Cert.Lib
-- ==== Proof.LibBlockSum.lean ====
/-
  A sum over `H` consecutive blocks of `B` positions is the sum over all `H * B` positions; and a small natural
  number's 32-bit word is the word whose signed reading is that number.
-/
import proofs.«427598_j71588514890457_2_alg».proof.Proof.LibMaskSum
import Idealize.ShloMosaic.Lib.StableHlo.Predicate
import Mathlib.Algebra.BigOperators.Fin

open scoped BigOperators

namespace Cert.Lib

open Idealize.ShloMosaic

/-- Summing block by block: over `Fin n` with `n = H * B`, the double sum over the block `k` and the offset `b` of
    `f (B * k + b)` is the sum of `f` over every position. For any additive commutative monoid. -/
theorem sum_blocks {α : Type*} [AddCommMonoid α] {n H B : Nat} (hn : n = H * B) (f : Fin n → α) :
    ∑ k : Fin H, ∑ b : Fin B, f ⟨B * k.val + b.val, block_pos_lt hn k b⟩ = ∑ c : Fin n, f c := by
  subst hn
  rw [← Fintype.sum_prod_type (f := fun p : Fin H × Fin B => f ⟨B * p.1.val + p.2.val, block_pos_lt rfl p.1 p.2⟩)]
  refine Fintype.sum_equiv finProdFinEquiv _ _ fun p => congrArg f (Fin.ext ?_)
  show B * p.1.val + p.2.val = (finProdFinEquiv p).val
  rw [finProdFinEquiv_apply_val]
  exact Nat.add_comm _ _

/-- A 32-bit word is the word of a natural number `g < 2 ^ 31` exactly when its signed reading is `g`. -/
theorem ofNat_eq_iff_toInt (g : Nat) (hg : g < 2 ^ 31) (w : BitVec 32) :
    BitVec.ofNat 32 g = w ↔ w.toInt = (g : Int) := by
  constructor
  · rintro rfl
    exact StableHlo.Predicate.toInt_ofNat_small g hg
  · intro h
    apply BitVec.eq_of_toInt_eq
    rw [h, StableHlo.Predicate.toInt_ofNat_small g hg]

end Cert.Lib
-- ==== Proof.BlockSums.lean ====
/-
  The kernel walks the 640000 edges in 5000 blocks of 128 and keeps two running sums. This module states what one
  block adds, as plain sums over the extended reals, and shows that the 5000 blocks together give the sums of
  `Spec.lean`.

  A block selects rows and targets by one-hot products: `hot a b` is 1 when the words `a` and `b` are equal and 0
  otherwise. Against a table, the one-hot row of a source word `s` that is a node number picks exactly that node's
  row (`pick_eq`: every other term of the sum is `0 * x = 0`); against the targets, the one-hot column of node `r`
  keeps the messages of the block's edges that point at `r`.
-/
import proofs.«427598_j71588514890457_2_alg».proof.Proof.Spec
import proofs.«427598_j71588514890457_2_alg».proof.Proof.LibBlockSum

open scoped BigOperators

noncomputable section

namespace Cert.Agg

open Idealize.ShloMosaic Idealize.ShloMosaic.ValueIdx

/-- Lane `j` of block `k` is edge `128 k + j` (reduced into range so that it is defined for every `k`). -/
def edgeOf (k : ℕ) (j : Fin 128) : Fin 640000 := ⟨(128 * k + j.val) % 640000, Nat.mod_lt _ (by norm_num)⟩

theorem edgeOf_val (k : ℕ) (hk : k < 5000) (j : Fin 128) : (edgeOf k j).val = 128 * k + j.val := by
  have hj := j.isLt
  show (128 * k + j.val) % 640000 = 128 * k + j.val
  exact Nat.mod_eq_of_lt (by omega)

/-- Summing over the blocks and their lanes is summing over the edges. -/
theorem sum_edges {α : Type*} [AddCommMonoid α] (g : Fin 640000 → α) :
    ∑ k ∈ Finset.range 5000, ∑ j : Fin 128, g (edgeOf k j) = ∑ c, g c := by
  rw [Finset.sum_range (fun k => ∑ j : Fin 128, g (edgeOf k j))]
  rw [← Cert.Lib.sum_blocks (n := 640000) (H := 5000) (B := 128) (by norm_num) g]
  refine Finset.sum_congr rfl fun k _ => Finset.sum_congr rfl fun j _ => congrArg g (Fin.ext ?_)
  exact edgeOf_val k.val k.isLt j

/-- The one-hot entry: 1 where the two words agree, 0 elsewhere. -/
def hot (a b : BitVec 32) : EReal := if a = b then 1 else 0

/-- An equality test of two words, widened to 32 bits and converted as a signed integer, is the one-hot entry. -/
theorem hot_eq (a b : BitVec 32) :
    FloatOps.sitofp (F := Ideal) .f32 ((IntOp.cmpi .eq a b).setWidth 32) = hot a b := by
  show (((((IntOp.cmpi .eq a b).setWidth 32).toInt : ℝ)) : EReal) = hot a b
  unfold hot
  by_cases h : a = b
  · rw [if_pos h, StableHlo.Predicate.cmpi_eq_iff.mpr h, show ((1#1 : BitVec 1).setWidth 32).toInt = 1 from by decide]
    norm_num
  · have h0 : IntOp.cmpi .eq a b = 0#1 :=
      ValueIdx.eq_zero_of_ne_one (fun hc => h (StableHlo.Predicate.cmpi_eq_iff.mp hc))
    rw [if_neg h, h0, show ((0#1 : BitVec 1).setWidth 32).toInt = 0 from by decide]
    norm_num

theorem hot_mul (a b : BitVec 32) (x : EReal) : hot a b * x = if a = b then x else 0 := by
  unfold hot
  by_cases h : a = b
  · rw [if_pos h, if_pos h, one_mul]
  · rw [if_neg h, if_neg h, zero_mul]

section
variable (feat : SF.Idx → EReal) (w : SW.Idx → EReal) (edges : IVec SE 32)

/-- The row of the table a one-hot product against the source word `s` selects, in column `d`. -/
def pick (s : BitVec 32) (d : Fin 128) : EReal := ∑ n : Fin 10000, hot (BitVec.ofNat 32 n.val) s * feat (ix2 n d)

/-- For a source word that is a node number the one-hot product reads that node's row: one term of the sum is
    `1 * x`, every other is `0 * x`. -/
theorem pick_eq (s : BitVec 32) (h0 : 0 ≤ s.toInt) (h1 : s.toInt < 10000) (d : Fin 128) :
    pick feat s d = feat (ix2 (⟨min s.toInt.toNat 9999, by omega⟩ : Fin 10000) d) := by
  unfold pick
  have hs : s.toInt = ((s.toInt.toNat : ℕ) : Int) := (Int.toNat_of_nonneg h0).symm
  have hlt : s.toInt.toNat < 10000 := by omega
  have hmin : min s.toInt.toNat 9999 = s.toInt.toNat := by omega
  rw [Finset.sum_eq_single (⟨s.toInt.toNat, hlt⟩ : Fin 10000)]
  · have he : BitVec.ofNat 32 s.toInt.toNat = s := (Cert.Lib.ofNat_eq_iff_toInt _ (by omega) s).mpr hs
    rw [hot_mul, if_pos he]
    exact congrArg (fun n : Fin 10000 => feat (ix2 n d)) (Fin.ext hmin.symm)
  · intro n _ hn
    have hne : ¬ BitVec.ofNat 32 n.val = s := fun h => hn (Fin.ext (by
      have h2 := (Cert.Lib.ofNat_eq_iff_toInt n.val (by have := n.isLt; omega) s).mp h
      show n.val = s.toInt.toNat
      omega))
    rw [hot_mul, if_neg hne]
  · intro h
    exact absurd (Finset.mem_univ _) h

/-- What block `k` adds to node `r`, column `d`: the one-hot column of `r` against the block's weighted rows. -/
def blockEnh (k : ℕ) (r : Fin 10000) (d : Fin 128) : EReal :=
  ∑ j : Fin 128, hot (BitVec.ofNat 32 r.val) (edges (ix2 (edgeOf k j) 1))
    * (pick feat (edges (ix2 (edgeOf k j) 0)) d * w (ix1 (edgeOf k j)))

/-- What block `k` adds to the weight node `r` receives. -/
def blockCnt (k : ℕ) (r : Fin 10000) : EReal :=
  ∑ j : Fin 128, hot (BitVec.ofNat 32 r.val) (edges (ix2 (edgeOf k j) 1)) * w (ix1 (edgeOf k j))

/-- The running sums after block `n`. -/
def accEnh (n : ℕ) (r : Fin 10000) (d : Fin 128) : EReal := ∑ k ∈ Finset.range (n + 1), blockEnh feat w edges k r d
def accCnt (n : ℕ) (r : Fin 10000) : EReal := ∑ k ∈ Finset.range (n + 1), blockCnt w edges k r

theorem accEnh_zero (r : Fin 10000) (d : Fin 128) : accEnh feat w edges 0 r d = 0 + blockEnh feat w edges 0 r d := by
  unfold accEnh
  rw [Finset.sum_range_one, zero_add]

theorem accEnh_succ (n : ℕ) (r : Fin 10000) (d : Fin 128) :
    accEnh feat w edges (n + 1) r d = accEnh feat w edges n r d + blockEnh feat w edges (n + 1) r d :=
  Finset.sum_range_succ _ _

theorem accCnt_zero (r : Fin 10000) : accCnt w edges 0 r = 0 + blockCnt w edges 0 r := by
  unfold accCnt
  rw [Finset.sum_range_one, zero_add]

theorem accCnt_succ (n : ℕ) (r : Fin 10000) : accCnt w edges (n + 1) r = accCnt w edges n r + blockCnt w edges (n + 1) r :=
  Finset.sum_range_succ _ _

/-- The word of node `r` equals a target word exactly when the target, read signed, is `r`. -/
theorem hot_target (r : Fin 10000) (t : BitVec 32) (x : EReal) :
    hot (BitVec.ofNat 32 r.val) t * x = if t.toInt = (r.val : Int) then x else 0 := by
  rw [hot_mul]
  have hiff := Cert.Lib.ofNat_eq_iff_toInt r.val (by have := r.isLt; omega) t
  by_cases h : BitVec.ofNat 32 r.val = t
  · rw [if_pos h, if_pos (hiff.mp h)]
  · rw [if_neg h, if_neg (fun hh => h (hiff.mpr hh))]

/-- After the last block the running weight is the weight node `r` receives. -/
theorem accCnt_last (r : Fin 10000) : accCnt w edges 4999 r = cnt w edges r := by
  unfold accCnt blockCnt cnt into
  rw [Finset.sum_filter]
  rw [← sum_edges (fun e => if (edges (ix2 e 1)).toInt = (r.val : Int) then w (ix1 e) else 0)]
  refine Finset.sum_congr rfl fun k _ => Finset.sum_congr rfl fun j _ => ?_
  exact hot_target r _ _

/-- After the last block the running sum is what node `r` receives, when every source word is a node number. -/
theorem accEnh_last (hsrc : ∀ e : Fin 640000, 0 ≤ (edges (ix2 e 0)).toInt ∧ (edges (ix2 e 0)).toInt < 10000)
    (r : Fin 10000) (d : Fin 128) : accEnh feat w edges 4999 r d = enh feat w edges r d := by
  unfold accEnh blockEnh enh into
  rw [Finset.sum_filter]
  rw [← sum_edges (fun e => if (edges (ix2 e 1)).toInt = (r.val : Int) then msg feat w edges e d else 0)]
  refine Finset.sum_congr rfl fun k _ => Finset.sum_congr rfl fun j _ => ?_
  rw [hot_target, pick_eq feat _ (hsrc _).1 (hsrc _).2]
  rfl
end

end Cert.Agg

end
-- ==== Proof.LibPlainDot.lean ====
/-
  A plain matrix product read at an element, on the extended reals.

  For the dimension numbers of a plain product — `[M, K]` by `[K, N]`, the left operand's axis 1 contracted with the
  right operand's axis 0, no batch axes — the operand indices at output element `(a, b)` and contraction coordinate
  `k` are `(a, k)` and `(k, b)`. So a product accumulated into the zero splat is, at `(a, b)`, the plain sum
  `∑ k : Fin K, lhs (a, k) * rhs (k, b)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a plain product `[M, K] × [K, N] → [M, N]`: `lhs_contracting = [1]`,
    `rhs_contracting = [0]`, the other axes the result's, no batch axes. At a printed record every field is `rfl`. -/
structure PlainDot {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {d : DotDims ⟨2, ![M, K]⟩ ⟨2, ![K, N]⟩ ⟨2, ![M, N]⟩}

/-- A plain product contracts one axis. -/
theorem PlainDot.rank_contr (hd : PlainDot d) : d.contr.rank = 1 := by
  rw [d.rank_contr, hd.lc]; rfl

/-- The contracted axis has extent `K`. -/
theorem PlainDot.size_contr (hd : PlainDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem PlainDot.lhs0 (hd : PlainDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem PlainDot.lhs1 (hd : PlainDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the contraction coordinate. -/
theorem PlainDot.rhs0 (hd : PlainDot d) (i : (⟨2, ![M, N]⟩ : Shape).Idx) (q : d.contr.Idx) :
    (d.rhsIdx i q 0).val = (q ⟨0, by rw [hd.rank_contr]; exact Nat.one_pos⟩).val :=
  d.rhsIdx_val_of_single hd.rc i q

/-- The right operand's column is the output's column. -/
theorem PlainDot.rhs1 (hd : PlainDot d) (i : (⟨2, ![M, N]⟩ : Shape).Idx) (q : d.contr.Idx) :
    (d.rhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The contraction of a plain product, re-indexed by the contracted coordinate: at output element `(a, b)` it is
    `∑ k : Fin K, lhs (a, k) * rhs (k, b)`. -/
theorem PlainDot.sum_contr (hd : PlainDot d) (lhs : (⟨2, ![M, K]⟩ : Shape).Idx → EReal)
    (rhs : (⟨2, ![K, N]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 k b) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 k b :=
    funext fun x => Fin.ext (by
      match x with
      | ⟨0, _⟩ => exact (hd.rhs0 _ _).trans hk
      | ⟨1, _⟩ => exact hd.rhs1 _ _)
  rw [el, er]

/-- A plain product accumulated into the zero splat, at element `(a, b)`: `∑ k, lhs (a, k) * rhs (k, b)`. -/
theorem PlainDot.matmul_zero_apply (hd : PlainDot d) {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul d prec lhs rhs (constant ⟨2, ![M, N]⟩ .f32 0x00000000#32) (ix2 a b)
      = ∑ k : Fin K, lhs (ix2 a k) * rhs (ix2 k b) :=
  (Ideal.matmul_constant_zero_apply d prec lhs rhs (ix2 a b)).trans (hd.sum_contr lhs rhs a b)

/-- The host's plain `dot_general` at element `(a, b)`: the same sum. -/
theorem PlainDot.dotGeneral_apply (hd : PlainDot d) {φ₁ φ₂ : FTy} (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) :=
  (Ideal.dotGeneral_apply d prec sched lhs rhs (ix2 a b)).trans (hd.sum_contr lhs rhs a b)

end Cert.Lib

end
-- ==== Proof.LibRowReduce.lean ====
/-
  Row reductions of a matrix and the "keepdims" column they are carried in, read at coordinates.

  A matrix of shape `[a, b]` reduced along its second axis gives one number per row. Kept as a column `[a, 1]`
  (a shape cast of the `[a]` vector) and broadcast back over the `b` columns, entry `(r, c)` of the broadcast is
  the number of row `r`. At the extended reals the sum along a row is the finite sum of the row's entries, and the
  maximum along a row is the fold of `max` over them from the accumulator's value.
-/
import Idealize.ShloMosaic.Lib.ValueLayout
import Idealize.ShloMosaic.PureOps.Ideal.Laws

noncomputable section

namespace Cert.RowReduce

open Idealize.ShloMosaic Idealize.ShloMosaic.ValueIdx

variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(i, j)`, the column at row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Along the second axis of `[a, b]`, the source index over row `r` with coordinate `k` inserted is `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

variable {φ : FTy}

/-- A sum along the rows of a matrix of extended reals, at row `r`: the finite sum of that row's entries. -/
theorem rowSum_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the rows of a matrix of extended reals, at row `r`: the fold of `max` over that row's entries
    from the accumulator's value. -/
theorem rowMax_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (lift_row h r k))

end Cert.RowReduce

end
-- ==== Proof.Pay.lean ====
/-
  The kernel body's arithmetic read at one entry, over the extended reals. With `hot a b` the one-hot entry (1 when
  the words agree, else 0) and `pick` the one-hot product against the feature table (`BlockSums.lean`):
    the one-hot matrix of the targets at (r, j) is `hot r (target of lane j)`;
    the received-weight update at row r adds  `∑ j, hot r (target j) * weight j`;
    the received-sum update at (r, d) adds     `∑ j, hot r (target j) * (pick table (source j) d * weight j)`
      (two matrix products into zero accumulators: plain sums here, and a change of float format is the identity);
    the last point's result at (r, d) is the blend of `Spec.lean`.
-/
import proofs.«427598_j71588514890457_2_alg».proof.Proof.Gen.KernelIdeal.Skeleton
import proofs.«427598_j71588514890457_2_alg».proof.Proof.BlockSums
import proofs.«427598_j71588514890457_2_alg».proof.Proof.LibPlainDot
import proofs.«427598_j71588514890457_2_alg».proof.Proof.LibRowReduce
import Idealize.ShloMosaic.Lib.Pipeline.Value
import Idealize.ShloMosaic.Lib.ValueIdx
import Idealize.ShloMosaic.PureOps.Ideal.Laws

open scoped BigOperators

noncomputable section

namespace Cert.KernelIdeal.Pay

open Idealize.ShloMosaic Idealize.ShloMosaic.ValueIdx Cert.KernelIdeal Cert.KernelIdeal.Gen Cert.Agg

/-- A vector `[b]` viewed as the row `[1, b]` and broadcast over `a` rows reads, at `(i, j)`, the vector at `j`. -/
theorem row_bcast_apply {α : Type} {a b : ℕ} (x : (⟨1, ![b]⟩ : Shape).Idx → α)
    (hc : (⟨1, ![b]⟩ : Shape).ShapeCasts ⟨2, ![1, b]⟩) (hb : (⟨2, ![1, b]⟩ : Shape).Broadcasts ⟨2, ![a, b]⟩)
    (i : Fin a) (j : Fin b) :
    broadcastTo ⟨2, ![a, b]⟩ (shapeCast ⟨2, ![1, b]⟩ x hc) hb (ix2 i j) = x (ix1 j) := by
  refine (broadcastTo_apply _ hb (ix2 i j) (ix2 (0 : Fin 1) j) fun ax => ?_).trans ?_
  · match ax with
    | ⟨0, _⟩ => rfl
    | ⟨1, _⟩ =>
      show j.val = if b = 1 then 0 else j.val
      split
      · have := j.isLt; omega
      · rfl
  · refine shapeCast_apply x hc _ _ ?_
    rw [Shape.rowMajor_val_one, Shape.rowMajor_val_two]
    show j.val = 0 * b + j.val
    omega

/-- A vector `[a]` viewed as the column `[a, 1]` and broadcast over `b` columns reads, at `(i, j)`, the vector at `i`. -/
theorem col_bcast_apply {α : Type} {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) :=
  (Cert.RowReduce.broadcastTo_a1_ab_apply _ hb i j).trans (Cert.RowReduce.shapeCast_a_a1_apply x hc i 0)

/-- The zero word of binary32 denotes the extended real 0, also when written as a scalar constant. -/
theorem scalar_zero : (Scalar.ofBits .f32 0x00000000#32 : Ideal .f32) = 0 := Ideal.ofBits_zero_f32

/-- A cast to the same shape changes nothing (any float instance). -/
theorem pay1_eq {F : FTy → Type} [FloatOps F] (v : FVec F S10000x1 .f32) : k0_pay1 v = v := by
  unfold k0_pay1
  exact shapeCast_self v _

/-- The block the first point clears the received sums with is zero. -/
theorem pay3_apply (i : S10000x128.Idx) : k0_pay3 (F := Ideal) i = 0 := by
  unfold k0_pay3
  show shapeCast S10000x128 (broadcast S10000x128 (Scalar.ofBits .f32 0x00000000#32 : Ideal .f32)) _ i = 0
  rw [shapeCast_self]
  exact scalar_zero

/-- The column the first point clears the received weights with is zero. -/
theorem pay4_apply (i : S10000x1.Idx) : k0_pay4 (F := Ideal) i = 0 := by
  unfold k0_pay4
  show shapeCast S10000x1 (broadcast S10000x1 (Scalar.ofBits .f32 0x00000000#32 : Ideal .f32)) _ i = 0
  rw [shapeCast_self]
  exact scalar_zero

/-- The one-hot matrix of the block's targets. -/
theorem pay5_apply (v6 : Vec Ideal S128 .i32) (r : Fin 10000) (j : Fin 128) :
    k0_pay5 (F := Ideal) v6 (ix2 r j) = hot (BitVec.ofNat 32 r.val) (v6 (ix1 j)) := by
  unfold k0_pay5
  refine Eq.trans ?_ (hot_eq _ _)
  show FloatOps.sitofp (F := Ideal) .f32 ((IntOp.cmpi .eq (iota .tc S10000x128 32 [0] _ (ix2 r j))
      (broadcastTo S10000x128 (shapeCast S1x128 (shapeCast S128 v6 _) _) _ (ix2 r j))).setWidth 32) = _
  rw [iota_single_apply, row_bcast_apply, shapeCast_self]

/-- The received-weight update at row `r`. -/
theorem pay7_apply (v6 : Vec Ideal S128 .i32) (v8 : Vec Ideal S128 .f32) (v38 : Vec Ideal S10000x1 .f32) (r : Fin 10000) :
    k0_pay7 (F := Ideal) v6 v8 v38 (ix2 r (0 : Fin 1))
      = v38 (ix2 r (0 : Fin 1)) + ∑ j : Fin 128, hot (BitVec.ofNat 32 r.val) (v6 (ix1 j)) * v8 (ix1 j) := by
  unfold k0_pay7
  -- the sum of the two columns at row r; the second is the row sum kept as a column
  refine (addf_apply _ _ _).trans (congrArg (fun x => v38 (ix2 r (0 : Fin 1)) + x) ?_)
  refine (Cert.RowReduce.shapeCast_a_a1_apply _ _ r 0).trans ?_
  refine (Cert.RowReduce.rowSum_apply _ _ _ _ _ r).trans ?_
  -- each entry of the row is the one-hot entry times the lane's weight
  refine Finset.sum_congr rfl fun j _ => ?_
  refine (mulf_apply _ _ _).trans ?_
  rw [pay5_apply, row_bcast_apply]

/-- The first product at `(j, n)`'s left factor: the one-hot row of lane `j`'s source word. -/
theorem onehot_src_apply (v4 : Vec Ideal S128 .i32) (j : Fin 128) (n : Fin 10000) :
    (sitofp .f32 (extui 32 (cmpi .eq (iota .tc S128x10000 32 [1] iota_S128x10000_d1_w32)
        (broadcastTo S128x10000 (shapeCast S128x1 (shapeCast S128 v4 shapeCasts_S128_S128) shapeCasts_S128_S128x1)
          broadcasts_S128x1_S128x10000)) natLt_1_32) : FVec Ideal S128x10000 .f32) (ix2 j n)
      = hot (BitVec.ofNat 32 n.val) (v4 (ix1 j)) := by
  refine Eq.trans ?_ (hot_eq _ _)
  show FloatOps.sitofp (F := Ideal) .f32 ((IntOp.cmpi .eq (iota .tc S128x10000 32 [1] _ (ix2 j n))
      (broadcastTo S128x10000 (shapeCast S128x1 (shapeCast S128 v4 _) _) _ (ix2 j n))).setWidth 32) = _
  rw [iota_single_apply, col_bcast_apply, shapeCast_self]

/-- The two printed dimension-number records are those of a plain product. -/
theorem plain1 : Cert.Lib.PlainDot dot_S128x10000_S10000x128_S128x128_1_0_0_1_n_n := ⟨rfl, rfl, rfl, rfl, rfl, rfl⟩
theorem plain2 : Cert.Lib.PlainDot dot_S10000x128_S128x128_S10000x128_1_0_0_1_n_n := ⟨rfl, rfl, rfl, rfl, rfl, rfl⟩

/-- The received-sum update at `(r, d)`. -/
theorem pay6_apply (v3 : Vec Ideal S10000x128 .f32) (v4 v6 : Vec Ideal S128 .i32) (v8 : Vec Ideal S128 .f32)
    (v27 : Vec Ideal S10000x128 .f32) (r : Fin 10000) (d : Fin 128) :
    k0_pay6 (F := Ideal) v3 v4 v6 v8 v27 (ix2 r d)
      = v27 (ix2 r d) + ∑ j : Fin 128, hot (BitVec.ofNat 32 r.val) (v6 (ix1 j)) * (pick v3 (v4 (ix1 j)) d * v8 (ix1 j)) := by
  unfold k0_pay6
  rw [shapeCast_self]
  refine (addf_apply _ _ _).trans (congrArg (fun x => v27 (ix2 r d) + x) ?_)
  -- the second product, into the zero accumulator, is a plain sum over the lanes
  refine (plain2.matmul_zero_apply none _ _ r d).trans ?_
  refine Finset.sum_congr rfl fun j _ => ?_
  -- left factor: the one-hot entry (a change of float format is the identity)
  have e1 : (truncf .bf16 (k0_pay5 (F := Ideal) v6) bitsLt_bf16_f32 : FVec Ideal S10000x128 .bf16) (ix2 r j)
      = hot (BitVec.ofNat 32 r.val) (v6 (ix1 j)) := pay5_apply v6 r j
  rw [e1]
  refine congrArg (fun x => hot (BitVec.ofNat 32 r.val) (v6 (ix1 j)) * x) ?_
  -- right factor: the first product times the lane's weight
  refine (truncf_apply (φ := .f32) (ψ := .bf16) _ bitsLt_bf16_f32 (ix2 j d)).trans ?_
  refine (mulf_apply _ _ (ix2 j d)).trans ?_
  rw [col_bcast_apply]
  refine congrArg (fun x => x * v8 (ix1 j)) ((plain1.matmul_zero_apply (some .fp32) _ _ j d).trans ?_)
  -- the first product is the one-hot row of the lane's source word against the table
  unfold pick
  exact Finset.sum_congr rfl fun n _ => congrArg (fun x => x * v3 (ix2 n d)) (onehot_src_apply v4 j n)

/-- The last point's result at `(r, d)`: the blend of the table's entry with the received sum over the received
    weight (both loads of the weight column read the same contents). -/
theorem pay2_apply (v3 : Vec Ideal S10000x128 .f32) (v46 v49 : Vec Ideal S10000x1 .f32) (v54 : Vec Ideal S10000x128 .f32)
    (r : Fin 10000) (d : Fin 128) (h : v49 (ix2 r (0 : Fin 1)) = v46 (ix2 r (0 : Fin 1))) :
    k0_pay2 (F := Ideal) v3 v46 v49 v54 (ix2 r d) = blend (v3 (ix2 r d)) (v54 (ix2 r d)) (v46 (ix2 r (0 : Fin 1))) := by
  unfold k0_pay2 blend
  -- the gate column at row r
  have hg : ∀ c : EReal, FloatOps.sitofp (F := Ideal) .f32 ((FloatOps.cmpf (F := Ideal) (φ := .f32) .ogt c eps).setWidth 32) = gate c :=
    gate_signed
  refine (addf_apply _ _ _).trans (congrArg₂ (· + ·) ?_ ?_)
  · -- the node's own entry times (1 − agg · gate)
    refine (mulf_apply _ _ _).trans (congrArg (v3 (ix2 r d) * ·) ?_)
    refine (Cert.RowReduce.broadcastTo_a1_ab_apply _ _ r d).trans ?_
    show one - agg * FloatOps.sitofp (F := Ideal) .f32 ((FloatOps.cmpf (F := Ideal) (φ := .f32) .ogt (v49 (ix2 r (0 : Fin 1))) eps).setWidth 32) = _
    rw [hg, h]
  · -- the received sum over the larger of the received weight and eps, times agg · gate
    refine (mulf_apply _ _ _).trans (congrArg₂ (· * ·) ?_ ?_)
    · refine (divf_apply _ _ _).trans (congrArg (Ideal.div (v54 (ix2 r d)) ·) ?_)
      exact Cert.RowReduce.broadcastTo_a1_ab_apply _ _ r d
    · refine (Cert.RowReduce.broadcastTo_a1_ab_apply _ _ r d).trans ?_
      show agg * FloatOps.sitofp (F := Ideal) .f32 ((FloatOps.cmpf (F := Ideal) (φ := .f32) .ogt (v49 (ix2 r (0 : Fin 1))) eps).setWidth 32) = _
      rw [hg, h]

end Cert.KernelIdeal.Pay

end
-- ==== Proof.Blocks.lean ====
/-
  What the kernel body is handed at grid point `t`: lane `j` of the three streamed blocks is edge `128 t + j` —
  its source word, its target word (columns 0 and 1 of the edge table, which the program first slices out and
  flattens) and its weight — and the feature table's one block is the whole table.
-/
import proofs.«427598_j71588514890457_2_alg».proof.Proof.Gen.KernelIdeal.Frame
import proofs.«427598_j71588514890457_2_alg».proof.Proof.BlockSums
import Idealize.ShloMosaic.Lib.Pipeline.Value
import Idealize.ShloMosaic.Lib.StableHlo.Run
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen Cert.Agg

variable (m : (ℓ : Loc nD τ sig) → Buf (Elt Ideal) ℓ)

/-- The three argument arrays as launched, at their literal types. -/
abbrev feat (c : Dev nD) : Vec Ideal S10000x128 .f32 := m ((c : Thread nD τ).loc main_arg0)
abbrev wts (c : Dev nD) : Vec Ideal S640000 .f32 := m ((c : Thread nD τ).loc main_arg1)
abbrev edges (c : Dev nD) : Vec Ideal S640000x2 .i32 := m ((c : Thread nD τ).loc main_arg2)

/-- The four input blocks at point `t`, at their literal types. -/
abbrev srcBlk (c : Dev nD) (t : Fin cfg0.N) : Vec Ideal S128 .i32 := iblk m c 0 t
abbrev tgtBlk (c : Dev nD) (t : Fin cfg0.N) : Vec Ideal S128 .i32 := iblk m c 1 t
abbrev wBlk (c : Dev nD) (t : Fin cfg0.N) : Vec Ideal S128 .f32 := iblk m c 2 t
abbrev featBlk (c : Dev nD) (t : Fin cfg0.N) : Vec Ideal S10000x128 .f32 := iblk m c 3 t

/-! ## Where the blocks sit in their arrays -/

/-- The three streamed windows' block at point t is block number t of the array (decided over the grid). -/
theorem idx0 : ∀ t : Fin cfg0.N, win0_0.index t 0 = t.val :=
  (by decide +kernel : ∀ t : Fin grid0.N, win0_0.index t 0 = t.val)
theorem idx1 : ∀ t : Fin cfg0.N, win0_1.index t 0 = t.val :=
  (by decide +kernel : ∀ t : Fin grid0.N, win0_1.index t 0 = t.val)
theorem idx2 : ∀ t : Fin cfg0.N, win0_2.index t 0 = t.val :=
  (by decide +kernel : ∀ t : Fin grid0.N, win0_2.index t 0 = t.val)
/-- The feature table's block is block (0, 0) at every point (decided over the grid). -/
theorem idx3 : ∀ t : Fin cfg0.N, win0_3.index t 0 = 0 ∧ win0_3.index t 1 = 0 :=
  (by decide +kernel : ∀ t : Fin grid0.N, win0_3.index t 0 = 0 ∧ win0_3.index t 1 = 0)

/-- Position j of block t of a vector cut into blocks of 128 is position 128 t + j, the number of edge (t, j). -/
theorem lane_val (t : Fin cfg0.N) (j : Fin 128) : t.val * 128 + 1 * j.val = (edgeOf t.val j).val := by
  have hN : cfg0.N = 5000 := N_0
  have ht : t.val < 5000 := hN ▸ t.isLt
  rw [edgeOf_val _ ht]
  omega

/-! ## The two edge columns as the region finds them -/

/-- A column of the edge table, sliced out as [640000, 1] and flattened to [640000], read at i: the table at row i
    and that column. The slice starts at (0, k), and row-major position i · 1 + 0 of the column is position i of the
    vector. -/
theorem col_apply (x2 : IVec S640000x2 32) (k : Fin 2) (hs : S640000x2.Slices ![0, k.val] S640000x1)
    (hc : S640000x1.ShapeCasts S640000) (e : Fin 640000) :
    shapeCast S640000 (extractStridedSlice S640000x1 ![0, k.val] x2 hs) hc (ix1 e) = x2 (ix2 e k) := by
  refine (shapeCast_apply _ hc (ix1 e) (ix2 e (0 : Fin 1)) ?_).trans ?_
  · rw [Shape.rowMajor_val_two, Shape.rowMajor_val_one]
    show e.val * 1 + 0 = e.val
    omega
  · refine extractStridedSlice_apply ![0, k.val] x2 hs (ix2 e (0 : Fin 1)) (ix2 e k) fun a => ?_
    match a with
    | ⟨0, _⟩ => show e.val = 0 + e.val; omega
    | ⟨1, _⟩ => show k.val = k.val + 0; omega

/-- The source vector as the region finds it: column 0 of the edge table as launched, sliced out and flattened. -/
theorem V_main_v1 (c : Dev nD) :
    (V m c main_v1 : S640000.Idx → BitVec 32)
      = shapeCast S640000 (extractStridedSlice S640000x1 ![0, 0] (m ((c : Thread nD τ).loc main_arg2))
          slices_S640000x2_S640000x1_0_0) shapeCasts_S640000x1_S640000 := by
  dsimp only [V, hostOps0]
  after_results
  rfl

/-- The target vector as the region finds it: column 1 of the edge table as launched, sliced out and flattened. -/
theorem V_main_v3 (c : Dev nD) :
    (V m c main_v3 : S640000.Idx → BitVec 32)
      = shapeCast S640000 (extractStridedSlice S640000x1 ![0, 1] (m ((c : Thread nD τ).loc main_arg2))
          slices_S640000x2_S640000x1_0_1) shapeCasts_S640000x1_S640000 := by
  dsimp only [V, hostOps0]
  after_results
  rfl

/-! ## The four blocks -/

theorem srcBlk_apply (c : Dev nD) (t : Fin cfg0.N) (j : Fin 128) :
    srcBlk m c t (ix1 j) = edges m c (ix2 (edgeOf t.val j) (0 : Fin 2)) := by
  show iblk m c 0 t (ix1 j) = _
  unfold iblk
  rw [View.read_apply]
  show (V m c main_v1 : S640000.Idx → BitVec 32) _ = _
  rw [V_main_v1]
  refine Eq.trans (congrArg _ ?_) (col_apply _ 0 slices_S640000x2_S640000x1_0_0 shapeCasts_S640000x1_S640000 (edgeOf t.val j))
  funext a
  apply Fin.ext
  match a with
  | ⟨0, _⟩ =>
    show win0_0.index t 0 * 128 + 1 * j.val = (edgeOf t.val j).val
    rw [idx0 t]
    exact lane_val t j

theorem tgtBlk_apply (c : Dev nD) (t : Fin cfg0.N) (j : Fin 128) :
    tgtBlk m c t (ix1 j) = edges m c (ix2 (edgeOf t.val j) (1 : Fin 2)) := by
  show iblk m c 1 t (ix1 j) = _
  unfold iblk
  rw [View.read_apply]
  show (V m c main_v3 : S640000.Idx → BitVec 32) _ = _
  rw [V_main_v3]
  refine Eq.trans (congrArg _ ?_) (col_apply _ 1 slices_S640000x2_S640000x1_0_1 shapeCasts_S640000x1_S640000 (edgeOf t.val j))
  funext a
  apply Fin.ext
  match a with
  | ⟨0, _⟩ =>
    show win0_1.index t 0 * 128 + 1 * j.val = (edgeOf t.val j).val
    rw [idx1 t]
    exact lane_val t j

theorem wBlk_apply (c : Dev nD) (t : Fin cfg0.N) (j : Fin 128) :
    wBlk m c t (ix1 j) = wts m c (ix1 (edgeOf t.val j)) := by
  show iblk m c 2 t (ix1 j) = _
  unfold iblk
  rw [View.read_apply]
  show V m c main_arg1 _ = m ((c : Thread nD τ).loc main_arg1) _
  rw [V_main_arg1]
  congr 1
  funext a
  apply Fin.ext
  match a with
  | ⟨0, _⟩ =>
    show win0_2.index t 0 * 128 + 1 * j.val = (edgeOf t.val j).val
    rw [idx2 t]
    exact lane_val t j

theorem featBlk_eq (c : Dev nD) (t : Fin cfg0.N) : featBlk m c t = feat m c := by
  funext i
  show iblk m c 3 t i = _
  unfold iblk
  rw [View.read_apply]
  show V m c main_arg0 _ = m ((c : Thread nD τ).loc main_arg0) _
  rw [V_main_arg0]
  congr 1
  funext a
  apply Fin.ext
  match a with
  | ⟨0, _⟩ =>
    show win0_3.index t 0 * 10000 + 1 * (i 0).val = (i 0).val
    rw [(idx3 t).1]
    omega
  | ⟨1, _⟩ =>
    show win0_3.index t 1 * 128 + 1 * (i 1).val = (i 1).val
    rw [(idx3 t).2]
    omega

end Cert.KernelIdeal.Blocks

end
-- ==== Proof.Acc.lean ====
/-
  The two running sums, point by point. After grid point `n` the received-sum buffer holds, at `(r, d)`, the sum over
  the blocks `0 … n` of what each adds to node `r` in column `d`, and the received-weight buffer holds at row `r` the
  sum of what they add to the node's weight: the first point starts from the zero block, every later point adds its own
  block to what the point before left. By induction on the point; the grid is never enumerated.
-/
import proofs.«427598_j71588514890457_2_alg».proof.Proof.Pieces
import proofs.«427598_j71588514890457_2_alg».proof.Proof.Pay
import proofs.«427598_j71588514890457_2_alg».proof.Proof.Blocks
import proofs.«427598_j71588514890457_2_alg».proof.Proof.BlockSums

open scoped BigOperators

noncomputable section

namespace Cert.KernelIdeal.Acc

open Idealize.ShloMosaic Idealize.ShloMosaic.TcCoe Idealize.SL.Sem Idealize.ShloMosaic.ValueIdx
open Cert.KernelIdeal Cert.KernelIdeal.Gen Cert.Agg Cert.KernelIdeal.Blocks

variable (m : (ℓ : Loc nD τ sig) → Buf (Elt Ideal) ℓ)

/-- What block `t` adds to the received sums, in the kernel's own terms, is `blockEnh`. -/
theorem block_sum (c : Dev nD) (t : Fin cfg0.N) (r : Fin 10000) (d : Fin 128) :
    (∑ j : Fin 128, hot (BitVec.ofNat 32 r.val) (tgtBlk m c t (ix1 j)) * (pick (featBlk m c t) (srcBlk m c t (ix1 j)) d * wBlk m c t (ix1 j)))
      = blockEnh (feat m c) (wts m c) (edges m c) t.val r d := by
  unfold blockEnh
  refine Finset.sum_congr rfl fun j _ => ?_
  rw [tgtBlk_apply, srcBlk_apply, wBlk_apply, featBlk_eq]

/-- What block `t` adds to the received weights is `blockCnt`. -/
theorem block_weight (c : Dev nD) (t : Fin cfg0.N) (r : Fin 10000) :
    (∑ j : Fin 128, hot (BitVec.ofNat 32 r.val) (tgtBlk m c t (ix1 j)) * wBlk m c t (ix1 j))
      = blockCnt (wts m c) (edges m c) t.val r := by
  unfold blockCnt
  refine Finset.sum_congr rfl fun j _ => ?_
  rw [tgtBlk_apply, wBlk_apply]

/-- The received-sum buffer after point `n`. -/
theorem sum_after (c : Dev nD) : ∀ (n : ℕ) (h : n < cfg0.N) (r : Fin 10000) (d : Fin 128),
    (outsAt0 m c n h).2.1 (ix2 r d) = accEnh (feat m c) (wts m c) (edges m c) n r d
  | 0, h, r, d => by
    have h0 : (⟨0, h⟩ : Fin cfg0.N).val % 5000 = 0 := rfl
    have h1 : ¬(⟨0, h⟩ : Fin cfg0.N).val % 5000 = 4999 := by
      show ¬(0 % 5000 = 4999)
      decide
    rw [outsAt0_A m c ⟨0, h⟩ h0 h1]
    dsimp only
    refine (congrFun (Pieces.sum_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) (srcBlk m c ⟨0, h⟩) (tgtBlk m c ⟨0, h⟩) (wBlk m c ⟨0, h⟩) (featBlk m c ⟨0, h⟩) ((hcond0_0 ⟨0, h⟩).mpr h0) (fun hh => h1 ((hcond0_1 ⟨0, h⟩).mp hh))) (ix2 r d)).trans ?_
    refine (Pay.pay6_apply (featBlk m c ⟨0, h⟩) (srcBlk m c ⟨0, h⟩) (tgtBlk m c ⟨0, h⟩) (wBlk m c ⟨0, h⟩) (k0_pay3 (F := Ideal)) r d).trans ?_
    rw [Pay.pay3_apply, accEnh_zero, block_sum m c ⟨0, h⟩ r d]
  | n + 1, h, r, d => by
    have hN : cfg0.N = 5000 := N_0
    have h0 : ¬(⟨n + 1, h⟩ : Fin cfg0.N).val % 5000 = 0 := by dsimp only; omega
    have ih := sum_after c n (Nat.lt_of_succ_lt h) r d
    by_cases h1 : (⟨n + 1, h⟩ : Fin cfg0.N).val % 5000 = 4999
    · rw [outsAt0_C m c ⟨n + 1, h⟩ h0 h1]
      dsimp only
      refine (congrFun (Pieces.sum_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) (srcBlk m c ⟨n + 1, h⟩) (tgtBlk m c ⟨n + 1, h⟩) (wBlk m c ⟨n + 1, h⟩) (featBlk m c ⟨n + 1, h⟩) (fun hh => h0 ((hcond0_0 ⟨n + 1, h⟩).mp hh)) ((hcond0_1 ⟨n + 1, h⟩).mpr h1) (outsAt0 m c n (Nat.lt_of_succ_lt h)).2.1 (outsAt0 m c n (Nat.lt_of_succ_lt h)).2.2) (ix2 r d)).trans ?_
      refine (Pay.pay6_apply (featBlk m c ⟨n + 1, h⟩) (srcBlk m c ⟨n + 1, h⟩) (tgtBlk m c ⟨n + 1, h⟩) (wBlk m c ⟨n + 1, h⟩) (outsAt0 m c n (Nat.lt_of_succ_lt h)).2.1 r d).trans ?_
      rw [ih, accEnh_succ, block_sum m c ⟨n + 1, h⟩ r d]
    · rw [outsAt0_B m c ⟨n + 1, h⟩ h0 h1]
      dsimp only
      refine (congrFun (Pieces.sum_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) (srcBlk m c ⟨n + 1, h⟩) (tgtBlk m c ⟨n + 1, h⟩) (wBlk m c ⟨n + 1, h⟩) (featBlk m c ⟨n + 1, h⟩) (fun hh => h0 ((hcond0_0 ⟨n + 1, h⟩).mp hh)) (fun hh => h1 ((hcond0_1 ⟨n + 1, h⟩).mp hh)) (outsAt0 m c n (Nat.lt_of_succ_lt h)).2.1 (outsAt0 m c n (Nat.lt_of_succ_lt h)).2.2) (ix2 r d)).trans ?_
      refine (Pay.pay6_apply (featBlk m c ⟨n + 1, h⟩) (srcBlk m c ⟨n + 1, h⟩) (tgtBlk m c ⟨n + 1, h⟩) (wBlk m c ⟨n + 1, h⟩) (outsAt0 m c n (Nat.lt_of_succ_lt h)).2.1 r d).trans ?_
      rw [ih, accEnh_succ, block_sum m c ⟨n + 1, h⟩ r d]

/-- The received-weight buffer after point `n`. -/
theorem weight_after (c : Dev nD) : ∀ (n : ℕ) (h : n < cfg0.N) (r : Fin 10000),
    (outsAt0 m c n h).2.2 (ix2 r (0 : Fin 1)) = accCnt (wts m c) (edges m c) n r
  | 0, h, r => by
    have h0 : (⟨0, h⟩ : Fin cfg0.N).val % 5000 = 0 := rfl
    have h1 : ¬(⟨0, h⟩ : Fin cfg0.N).val % 5000 = 4999 := by
      show ¬(0 % 5000 = 4999)
      decide
    rw [outsAt0_A m c ⟨0, h⟩ h0 h1]
    dsimp only
    refine (congrFun (Pieces.weight_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) (srcBlk m c ⟨0, h⟩) (tgtBlk m c ⟨0, h⟩) (wBlk m c ⟨0, h⟩) (featBlk m c ⟨0, h⟩) ((hcond0_0 ⟨0, h⟩).mpr h0) (fun hh => h1 ((hcond0_1 ⟨0, h⟩).mp hh))) (ix2 r (0 : Fin 1))).trans ?_
    rw [Pay.pay1_eq]
    refine (Pay.pay7_apply (tgtBlk m c ⟨0, h⟩) (wBlk m c ⟨0, h⟩) (k0_pay4 (F := Ideal)) r).trans ?_
    rw [Pay.pay4_apply, accCnt_zero, block_weight m c ⟨0, h⟩ r]
  | n + 1, h, r => by
    have hN : cfg0.N = 5000 := N_0
    have h0 : ¬(⟨n + 1, h⟩ : Fin cfg0.N).val % 5000 = 0 := by dsimp only; omega
    have ih := weight_after c n (Nat.lt_of_succ_lt h) r
    by_cases h1 : (⟨n + 1, h⟩ : Fin cfg0.N).val % 5000 = 4999
    · rw [outsAt0_C m c ⟨n + 1, h⟩ h0 h1]
      dsimp only
      refine (congrFun (Pieces.weight_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) (srcBlk m c ⟨n + 1, h⟩) (tgtBlk m c ⟨n + 1, h⟩) (wBlk m c ⟨n + 1, h⟩) (featBlk m c ⟨n + 1, h⟩) (fun hh => h0 ((hcond0_0 ⟨n + 1, h⟩).mp hh)) ((hcond0_1 ⟨n + 1, h⟩).mpr h1) (outsAt0 m c n (Nat.lt_of_succ_lt h)).2.1 (outsAt0 m c n (Nat.lt_of_succ_lt h)).2.2) (ix2 r (0 : Fin 1))).trans ?_
      rw [Pay.pay1_eq]
      refine (Pay.pay7_apply (tgtBlk m c ⟨n + 1, h⟩) (wBlk m c ⟨n + 1, h⟩) (outsAt0 m c n (Nat.lt_of_succ_lt h)).2.2 r).trans ?_
      rw [ih, accCnt_succ, block_weight m c ⟨n + 1, h⟩ r]
    · rw [outsAt0_B m c ⟨n + 1, h⟩ h0 h1]
      dsimp only
      refine (congrFun (Pieces.weight_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) (srcBlk m c ⟨n + 1, h⟩) (tgtBlk m c ⟨n + 1, h⟩) (wBlk m c ⟨n + 1, h⟩) (featBlk m c ⟨n + 1, h⟩) (fun hh => h0 ((hcond0_0 ⟨n + 1, h⟩).mp hh)) (fun hh => h1 ((hcond0_1 ⟨n + 1, h⟩).mp hh)) (outsAt0 m c n (Nat.lt_of_succ_lt h)).2.1 (outsAt0 m c n (Nat.lt_of_succ_lt h)).2.2) (ix2 r (0 : Fin 1))).trans ?_
      rw [Pay.pay1_eq]
      refine (Pay.pay7_apply (tgtBlk m c ⟨n + 1, h⟩) (wBlk m c ⟨n + 1, h⟩) (outsAt0 m c n (Nat.lt_of_succ_lt h)).2.2 r).trans ?_
      rw [ih, accCnt_succ, block_weight m c ⟨n + 1, h⟩ r]

end Cert.KernelIdeal.Acc

end
-- ==== Proof.Final.lean ====
/-
  The kernel's result array. Only the last grid point writes the result block, and that block is the whole array:
  its entry `(r, d)` is the blend of the table's entry with the two running sums after the last block, which are the
  sums over all edges that point at `r`. So the array the run leaves is the aggregation `G` of `Spec.lean`.
-/
import proofs.«427598_j71588514890457_2_alg».proof.Proof.Gen.KernelIdeal.Value
import proofs.«427598_j71588514890457_2_alg».proof.Proof.Acc

open scoped BigOperators

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.Agg Cert.KernelIdeal.Blocks

variable (m : (ℓ : Loc nD τ sig) → Buf (Elt Ideal) ℓ) (ρ : Dev nD → PrngReg)

/-- Every source word of the launched edge table is a node number. -/
def SrcOk (c : Dev nD) : Prop :=
  ∀ e : Fin 640000, 0 ≤ (edges m c (ix2 e (0 : Fin 2))).toInt ∧ (edges m c (ix2 e (0 : Fin 2))).toInt < 10000

/-- The result block the last point leaves, entry by entry. -/
theorem result_at (c : Dev nD) (hsrc : SrcOk m c) (t : Fin cfg0.N) (h1 : t.val % 5000 = 4999) (r : Fin 10000) (d : Fin 128) :
    (outsAt0 m c t.val t.isLt).1 (ix2 r d) = Gat (feat m c) (wts m c) (edges m c) r d := by
  have hN : cfg0.N = 5000 := N_0
  have ht : t.val = 4999 := by have := t.isLt; omega
  have h0 : ¬t.val % 5000 = 0 := by omega
  have hc0 : ¬cond0_0 (grid0.coords t) := fun hh => h0 ((hcond0_0 t).mp hh)
  have hc1 : cond0_1 (grid0.coords t) := (hcond0_1 t).mpr h1
  -- the two running sums after this point, by the induction over the points
  have eS := Acc.sum_after m c t.val t.isLt r d
  have eW := Acc.weight_after m c t.val t.isLt r
  rw [outsAt0_C m c t h0 h1] at eS eW
  dsimp only at eS eW
  have eS' := (congrFun (Pieces.sum_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (srcBlk m c t) (tgtBlk m c t) (wBlk m c t) (featBlk m c t) hc0 hc1
      (outsAt0 m c (t.val - 1) (Nat.lt_of_le_of_lt (Nat.sub_le _ _) t.isLt)).2.1
      (outsAt0 m c (t.val - 1) (Nat.lt_of_le_of_lt (Nat.sub_le _ _) t.isLt)).2.2) (ix2 r d)).symm.trans eS
  have eW' := (congrFun (Pieces.weight_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (srcBlk m c t) (tgtBlk m c t) (wBlk m c t) (featBlk m c t) hc0 hc1
      (outsAt0 m c (t.val - 1) (Nat.lt_of_le_of_lt (Nat.sub_le _ _) t.isLt)).2.1
      (outsAt0 m c (t.val - 1) (Nat.lt_of_le_of_lt (Nat.sub_le _ _) t.isLt)).2.2) (ix2 r (0 : Fin 1))).symm.trans eW
  -- the result block is the blend of the table with them
  rw [outsAt0_C m c t h0 h1]
  dsimp only
  refine (congrFun (Pieces.result_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (srcBlk m c t) (tgtBlk m c t) (wBlk m c t) (featBlk m c t) hc0 hc1
      (outsAt0 m c (t.val - 1) (Nat.lt_of_le_of_lt (Nat.sub_le _ _) t.isLt)).2.1
      (outsAt0 m c (t.val - 1) (Nat.lt_of_le_of_lt (Nat.sub_le _ _) t.isLt)).2.2) (ix2 r d)).trans ?_
  refine (Pay.pay2_apply (featBlk m c t) _ _ _ r d rfl).trans ?_
  rw [eS', eW', ht, accEnh_last (feat m c) (wts m c) (edges m c) hsrc r d, accCnt_last (wts m c) (edges m c) r, featBlk_eq]
  rfl

/-- The last point. -/
theorem last_lt : 4999 < cfg0.N := by rw [show cfg0.N = 5000 from N_0]; decide
abbrev tLast : Fin cfg0.N := ⟨4999, last_lt⟩

/-- The one write-back, at the last point, writes `G`: its block is the whole array. -/
theorem flushed_eq (c : Dev nD) (hsrc : SrcOk m c) (t : Fin cfg0.N) (hf : (cfg0.win 4).flush t = true) :
    (dats m 0 c).flushed 4 t = ((cfg0.win 4).blk t).view.read (Elt Ideal) (G (feat m c) (wts m c) (edges m c)) := by
  have hN : cfg0.N = 5000 := N_0
  have h1 : t.val % 5000 = 4999 := (flush0_4 t).mp hf
  have hG : (outsAt0 m c t.val t.isLt).1 = G (feat m c) (wts m c) (edges m c) :=
    eq_G (feat m c) (wts m c) (edges m c) _ (result_at m c hsrc t h1)
  obtain rfl : t = tLast := Fin.ext (by have := t.isLt; show t.val = 4999; omega)
  rw [Value.flushed4, hG]
  have hz' : (fun a => win0_4.index tLast a * main_v4.ty.shape.size a) = fun _ => 0 := funext fun a => by fin_cases a <;> decide +kernel
  exact (Memref.read_access_unit_zero (Elt Ideal) main_v4 hz' (fun a => by rw [congrFun hz' a]; simp) (G (feat m c) (wts m c) (edges m c))).symm

/-- So the result array ends holding `G`. -/
theorem final (c : Dev nD) (hsrc : SrcOk m c) : (dats m 0 c).arrAt 4 cfg0.N = G (feat m c) (wts m c) (edges m c) :=
  (dats m 0 c).arrAt_eq_of_cover 4 (G (feat m c) (wts m c) (edges m c)) (flushed_eq m c hsrc) fun i =>
    ⟨tLast, (flush0_4 tLast).mpr rfl, by
      show i ∈ ((View.whole main_v4).slice (win0_4.rect tLast)).set
      rw [View.set_slice_whole, Rect.mem_set_unit]
      intro a
      have h0 : (i 0 : Nat) < 10000 := (i 0).isLt
      have h1 : (i 1 : Nat) < 128 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 10000 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 128 from by decide +kernel]; omega⟩

/-- The run, read: the result array at `G` of the launched arguments, the arguments unchanged. -/
theorem run (hsrc : ∀ c : Dev nD, SrcOk m c) :
    θ_run defs (onTc (τ := τ) (main (F := Ideal))) ⟨m, fun _ => 0, ρ⟩ fun r => ∀ c : Dev nD,
      r.2.mem ((c : Thread nD τ).loc main_v4) = G (feat m c) (wts m c) (edges m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hsrc c)), (h c).2⟩) (Value.run_blocks m ρ)

end Cert.KernelIdeal.Final

end
-- ==== Proof.lean ====
/-
  One round of weighted neighbour aggregation on a graph — 10000 nodes with 128 features, 640000 weighted edges — computed
  two ways: by a kernel that walks the edges in 5000 blocks of 128, selecting feature rows and target nodes by one-hot
  matrix products and keeping two running sums, and by a reference that gathers the source rows, scales them and adds them
  into their targets with two scatter-adds. Over the extended reals both end at the same array `Cert.Agg.G`
  (Proof/Spec.lean): node `r` keeps its own features blended with the average of the messages of the edges whose target
  word is `r`. The kernel ignores an edge whose source word is not a node number where the reference would clamp it,
  so the claim is stated for source words in `[0, 10000)`; target words are unrestricted (both programs drop an edge
  whose target is no node).

  The pieces: Proof/PreRange.lean reads the source range out of the precondition; Proof/RefValue.lean shows the
  reference's result is `G`; Proof/Pieces.lean, Pay.lean, Blocks.lean, Acc.lean and Final.lean show the kernel's is:
  what each kind of grid point leaves, its arithmetic at one entry, what its input blocks hold, the running sums by
  induction on the point, and the result array. Proof/BlockSums.lean is the regrouping of the edge sums by blocks.
-/
import proofs.«427598_j71588514890457_2_alg».proof.Defs
import proofs.«427598_j71588514890457_2_alg».proof.Proof.Gen.Kernel
import proofs.«427598_j71588514890457_2_alg».proof.Proof.Gen.Kernel.Skeleton
import proofs.«427598_j71588514890457_2_alg».proof.Proof.Gen.Kernel.Launch
import proofs.«427598_j71588514890457_2_alg».proof.Proof.Gen.Kernel.Points
import proofs.«427598_j71588514890457_2_alg».proof.Proof.Gen.Kernel.Frame
import proofs.«427598_j71588514890457_2_alg».proof.Proof.Gen.KernelIdeal
import proofs.«427598_j71588514890457_2_alg».proof.Proof.Gen.KernelIdeal.Skeleton
import proofs.«427598_j71588514890457_2_alg».proof.Proof.Gen.KernelIdeal.Launch
import proofs.«427598_j71588514890457_2_alg».proof.Proof.Gen.KernelIdeal.Points
import proofs.«427598_j71588514890457_2_alg».proof.Proof.Gen.KernelIdeal.Frame
import proofs.«427598_j71588514890457_2_alg».proof.Proof.Gen.ReferenceIdeal
import proofs.«427598_j71588514890457_2_alg».proof.Proof.Gen.KernelIdeal.Value
import proofs.«427598_j71588514890457_2_alg».proof.Proof.Gen.ReferenceIdeal.Run
import proofs.«427598_j71588514890457_2_alg».proof.Proof.Gen.ReferenceIdeal.Read
import proofs.«427598_j71588514890457_2_alg».proof.Proof.Gen.Pre_finite_inputs
import proofs.«427598_j71588514890457_2_alg».proof.Proof.PreRange
import proofs.«427598_j71588514890457_2_alg».proof.Proof.RefValue
import proofs.«427598_j71588514890457_2_alg».proof.Proof.Final
import Idealize.ShloMosaic.Adequacy
import Idealize.ShloMosaic.Init

noncomputable section

namespace Cert.Proof

open Idealize.ShloMosaic Idealize.SL.Sem Cert.Kernel

/-- Under the precondition every source word of the kernel's edge table is a node number. -/
theorem src_ok (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Final.SrcOk m c :=
  fun e => Cert.PreRange.src_range _ _ _ (hpre c) e

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  fun m ρ m' ρ' hpre hagree =>
    ⟨fun c => Cert.Agg.G (Cert.KernelIdeal.Blocks.feat m c) (Cert.KernelIdeal.Blocks.wts m c) (Cert.KernelIdeal.Blocks.edges m c),
      Cert.KernelIdeal.Final.run m ρ (src_ok m hpre),
      (θ_run Cert.ReferenceIdeal.defs _ _).mono (fun _ h c => ⟨by
          rw [(h c).1]
          refine (Cert.ReferenceIdeal.Read.val_main_v39_eq (F := Ideal) _ _ _).trans ?_
          rw [(hagree c).1, (hagree c).2.1, (hagree c).2.2]
          exact Cert.RefValue.ref_eq _ _ _ (src_ok m hpre c), (h c).2⟩)
        (Cert.ReferenceIdeal.Value.run (F := Ideal) m' ρ')⟩⟩

end Cert.Proof

end
